-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x577x768 : Shape := ⟨3, ![32, 577, 768]⟩
abbrev S768x768 : Shape := ⟨2, ![768, 768]⟩
abbrev S768 : Shape := ⟨1, ![768]⟩
abbrev S289 : Shape := ⟨1, ![289]⟩
abbrev S_ : Shape := ⟨0, ![]⟩

class Facts : Prop where
  bcast_S_S32x577x768 : S_.BroadcastsInDim S32x577x768 (![] : Fin 0 → Fin S32x577x768.rank)
  reducesTo_S32x577x768_S_d0_1_2 : S32x577x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S289 : S_.BroadcastsInDim S289 (![] : Fin 0 → Fin S289.rank)
  reducesTo_S289_S_d0 : S289.ReducesTo [0] S_

variable [Facts]

def fn_part2 {F : FTy → Type} [FloatOps F] (main_arg7 : IVec S289 32) (main_v33 : IVec S_ 1) : IVec S_ 1 :=
  let main_c_12 : IVec S_ 32 := constantI S_ 32 4294966719#32
  let main_v34 : IVec S289 32 := broadcastInDim S289 ![] bcast_S_S289 main_c_12
  let main_v35 : IVec S289 1 := cmpi .sge main_arg7 main_v34
  let main_c_13 : IVec S_ 1 := constantI S_ 1 1#1
  let main_v36 : IVec S_ 1 := (fun x v => Host.reduce IntOp.andi x v reducesTo_S289_S_d0 h_S_) main_v35 main_c_13
  let main_v37 : IVec S_ 1 := andi main_v33 main_v36
  let main_c_14 : IVec S_ 32 := constantI S_ 32 577#32
  let main_v38 : IVec S289 32 := broadcastInDim S289 ![] bcast_S_S289 main_c_14
  let main_v39 : IVec S289 1 := cmpi .slt main_arg7 main_v38
  let main_c_15 : IVec S_ 1 := constantI S_ 1 1#1
  let main_v40 : IVec S_ 1 := (fun x v => Host.reduce IntOp.andi x v reducesTo_S289_S_d0 h_S_) main_v39 main_c_15
  let main_v41 : IVec S_ 1 := andi main_v37 main_v40
  main_v41

def fn_part1 {F : FTy → Type} [FloatOps F] (main_arg4 : FVec F S768 .f32) (main_arg5 : FVec F S768x768 .f32) (main_arg6 : FVec F S768 .f32) (main_arg7 : IVec S289 32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_v33

def fn {F : FTy → Type} [FloatOps F] (main_arg0 : FVec F S32x577x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : IVec S289 32) : IVec S_ 1 :=
  let main_v0 : FVec F S32x577x768 .f32 := Host.absf main_arg0
  let main_cst : FVec F S_ .f32 := constant S_ .f32 0x7F800000#32
  let main_v1 : FVec F S32x577x768 .f32 := broadcastInDim S32x577x768 ![] bcast_S_S32x577x768 main_cst
  let main_v2 : IVec S32x577x768 1 := cmpf .olt main_v0 main_v1
  let main_c : IVec S_ 1 := constantI S_ 1 1#1
  let main_v3 : IVec S_ 1 := (fun x v => Host.reduce IntOp.andi x v reducesTo_S32x577x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_v13 main_v16
-- ==== Kernel.lean ====
abbrev S32x577x768 : Shape := ⟨3, ![32, 577, 768]⟩
abbrev S768x768 : Shape := ⟨2, ![768, 768]⟩
abbrev S768 : Shape := ⟨1, ![768]⟩
abbrev S289 : Shape := ⟨1, ![289]⟩
abbrev S_ : Shape := ⟨0, ![]⟩
abbrev S289x1 : Shape := ⟨2, ![289, 1]⟩
abbrev S1 : Shape := ⟨1, ![1]⟩
abbrev S1x1 : Shape := ⟨2, ![1, 1]⟩
abbrev S32x289x768 : Shape := ⟨3, ![32, 289, 768]⟩
abbrev S1x768 : Shape := ⟨2, ![1, 768]⟩
abbrev S1x289x768 : Shape := ⟨3, ![1, 289, 768]⟩
abbrev S1x577x768 : Shape := ⟨3, ![1, 577, 768]⟩
abbrev S289x768 : Shape := ⟨2, ![289, 768]⟩
abbrev S577x768 : Shape := ⟨2, ![577, 768]⟩
abbrev S289x64 : Shape := ⟨2, ![289, 64]⟩
abbrev S577x64 : Shape := ⟨2, ![577, 64]⟩
abbrev S289x577 : Shape := ⟨2, ![289, 577]⟩

abbrev nBuf : Space → Nat
  | .hbm => 41
  | .vmem => 12
  | .smem => 0
  | _ => 0

abbrev bufTy : (tb : Table) → Fin (tcTables nBuf tb) → BufTy
  | .hbm, ⟨0, _⟩ => ⟨S32x577x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S289, .i32⟩
  | .hbm, ⟨8, _⟩ => ⟨S_, .i32⟩
  | .hbm, ⟨9, _⟩ => ⟨S289, .i32⟩
  | .hbm, ⟨10, _⟩ => ⟨S289, .i1⟩
  | .hbm, ⟨11, _⟩ => ⟨S_, .i32⟩
  | .hbm, ⟨12, _⟩ => ⟨S289, .i32⟩
  | .hbm, ⟨13, _⟩ => ⟨S289, .i32⟩
  | .hbm, ⟨14, _⟩ => ⟨S289, .i32⟩
  | .hbm, ⟨15, _⟩ => ⟨S289x1, .i32⟩
  | .hbm, ⟨16, _⟩ => ⟨S1, .i32⟩
  | .hbm, ⟨17, _⟩ => ⟨S_, .i32⟩
  | .hbm, ⟨18, _⟩ => ⟨S289x1, .i32⟩
  | .hbm, ⟨19, _⟩ => ⟨S289x1, .i1⟩
  | .hbm, ⟨20, _⟩ => ⟨S1x1, .i32⟩
  | .hbm, ⟨21, _⟩ => ⟨S289x1, .i32⟩
  | .hbm, ⟨22, _⟩ => ⟨S289x1, .i1⟩
  | .hbm, ⟨23, _⟩ => ⟨S289x1, .i1⟩
  | .hbm, ⟨24, _⟩ => ⟨S_, .i1⟩
  | .hbm, ⟨25, _⟩ => ⟨S289, .i1⟩
  | .hbm, ⟨26, _⟩ => ⟨S32x289x768, .f32⟩
  | .hbm, ⟨27, _⟩ => ⟨S32x289x768, .i1⟩
  | .hbm, ⟨28, _⟩ => ⟨S_, .f32⟩
  | .hbm, ⟨29, _⟩ => ⟨S32x289x768, .f32⟩
  | .hbm, ⟨30, _⟩ => ⟨S32x289x768, .f32⟩
  | .hbm, ⟨31, _⟩ => ⟨S768x768, .f32⟩
  | .hbm, ⟨32, _⟩ => ⟨S768x768, .bf16⟩
  | .hbm, ⟨33, _⟩ => ⟨S768x768, .f32⟩
  | .hbm, ⟨34, _⟩ => ⟨S768x768, .bf16⟩
  | .hbm, ⟨35, _⟩ => ⟨S768x768, .f32⟩
  | .hbm, ⟨36, _⟩ => ⟨S768x768, .bf16⟩
  | .hbm, ⟨37, _⟩ => ⟨S1x768, .f32⟩
  | .hbm, ⟨38, _⟩ => ⟨S1x768, .f32⟩
  | .hbm, ⟨39, _⟩ => ⟨S1x768, .f32⟩
  | .hbm, ⟨40, _⟩ => ⟨S32x289x768, .f32⟩
  | .local _ .vmem, ⟨0, _⟩ => ⟨S1x289x768, .f32⟩
  | .local _ .vmem, ⟨1, _⟩ => ⟨S1x289x768, .f32⟩
  | .local _ .vmem, ⟨2, _⟩ => ⟨S1x577x768, .f32⟩
  | .local _ .vmem, ⟨3, _⟩ => ⟨S1x577x768, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S768x768, .bf16⟩
  | .local _ .vmem, ⟨9, _⟩ => ⟨S1x768, .f32⟩
  | .local _ .vmem, ⟨10, _⟩ => ⟨S1x289x768, .f32⟩
  | .local _ .vmem, ⟨11, _⟩ => ⟨S1x289x768, .f32⟩
  | _, _ => ⟨S32x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x289x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x577x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x289x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S289 : S_.BroadcastsInDim S289 (![] : Fin 0 → Fin S289.rank)
  bcast_S289_S289x1_0 : S289.BroadcastsInDim S289x1 (![0] : Fin 1 → Fin S289x1.rank)
  bcast_S_S289x1 : S_.BroadcastsInDim S289x1 (![] : Fin 0 → Fin S289x1.rank)
  bcast_S1_S1x1_1 : S1.BroadcastsInDim S1x1 (![1] : Fin 1 → Fin S1x1.rank)
  bcast_S1x1_S289x1_0_1 : S1x1.BroadcastsInDim S289x1 (![0, 1] : Fin 2 → Fin S289x1.rank)
  reducesTo_S289x1_S289_d1 : S289x1.ReducesTo [1] S289
  h_S_ : 0 < S_.numel
  bcast_S289_S32x289x768_1 : S289.BroadcastsInDim S32x289x768 (![1] : Fin 1 → Fin S32x289x768.rank)
  bcast_S_S32x289x768 : S_.BroadcastsInDim S32x289x768 (![] : Fin 0 → Fin S32x289x768.rank)
  transposes_S768x768_S768x768_1_0 : S768x768.Transposes [1, 0] S768x768
  bitsLt_bf16_f32 : FTy.bits .bf16 < FTy.bits .f32
  shapeCasts_S768_S1x768 : S768.ShapeCasts S1x768
  inb_S1x289x768_S1x289x768_0_0_0 : ∀ a, (![0, 0, 0] : Fin 3 → Nat) a + S1x289x768.size a ≤ S1x289x768.size a
  h_S1x289x768 : 0 < S1x289x768.numel
  shapeCasts_S1x289x768_S289x768 : S1x289x768.ShapeCasts S289x768
  inb_S1x577x768_S1x577x768_0_0_0 : ∀ a, (![0, 0, 0] : Fin 3 → Nat) a + S1x577x768.size a ≤ S1x577x768.size a
  h_S1x577x768 : 0 < S1x577x768.numel
  shapeCasts_S1x577x768_S577x768 : S1x577x768.ShapeCasts S577x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S289x768 : S1x768.Broadcasts S289x768
  broadcasts_S1x768_S577x768 : S1x768.Broadcasts S577x768
  slices_S289x768_o0_0_S289x64 : S289x768.Slices ![0, 0] S289x64
  slices_S577x768_o0_0_S577x64 : S577x768.Slices ![0, 0] S577x64
  reduces_S289x577_S289 : S289x577.Reduces [1] S289
  shapeCasts_S289_S289x1 : S289.ShapeCasts S289x1
  broadcasts_S289x1_S289x577 : S289x1.Broadcasts S289x577
  slices_S289x768_o0_64_S289x64 : S289x768.Slices ![0, 64] S289x64
  slices_S577x768_o0_64_S577x64 : S577x768.Slices ![0, 64] S577x64
  slices_S289x768_o0_128_S289x64 : S289x768.Slices ![0, 128] S289x64
  slices_S577x768_o0_128_S577x64 : S577x768.Slices ![0, 128] S577x64
  slices_S289x768_o0_192_S289x64 : S289x768.Slices ![0, 192] S289x64
  slices_S577x768_o0_192_S577x64 : S577x768.Slices ![0, 192] S577x64
  slices_S289x768_o0_256_S289x64 : S289x768.Slices ![0, 256] S289x64
  slices_S577x768_o0_256_S577x64 : S577x768.Slices ![0, 256] S577x64
  slices_S289x768_o0_320_S289x64 : S289x768.Slices ![0, 320] S289x64
  slices_S577x768_o0_320_S577x64 : S577x768.Slices ![0, 320] S577x64
  slices_S289x768_o0_384_S289x64 : S289x768.Slices ![0, 384] S289x64
  slices_S577x768_o0_384_S577x64 : S577x768.Slices ![0, 384] S577x64
  slices_S289x768_o0_448_S289x64 : S289x768.Slices ![0, 448] S289x64
  slices_S577x768_o0_448_S577x64 : S577x768.Slices ![0, 448] S577x64
  slices_S289x768_o0_512_S289x64 : S289x768.Slices ![0, 512] S289x64
  slices_S577x768_o0_512_S577x64 : S577x768.Slices ![0, 512] S577x64
  slices_S289x768_o0_576_S289x64 : S289x768.Slices ![0, 576] S289x64
  slices_S577x768_o0_576_S577x64 : S577x768.Slices ![0, 576] S577x64
  slices_S289x768_o0_640_S289x64 : S289x768.Slices ![0, 640] S289x64
  slices_S577x768_o0_640_S577x64 : S577x768.Slices ![0, 640] S577x64
  slices_S289x768_o0_704_S289x64 : S289x768.Slices ![0, 704] S289x64
  slices_S577x768_o0_704_S577x64 : S577x768.Slices ![0, 704] S577x64
  concatenates_S289x64_S289x64_S289x64_S289x64_S289x64_S289x64_S289x64_S289x64_S289x64_S289x64_S289x64_S289x64_S289x768_d1 : Shape.Concatenates [S289x64, S289x64, S289x64, S289x64, S289x64, S289x64, S289x64, S289x64, S289x64, S289x64, S289x64, S289x64] S289x768 1
  shapeCasts_S289x768_S1x289x768 : S289x768.ShapeCasts S1x289x768
  gather_S32x577x768_S289x1_S32x289x768_02_1_n_n_1_1_321768_wf : GatherDims.WF S32x577x768 S289x1 S32x289x768 [0, 2] [1] [] [1] [] 1 ![32, 1, 768]
  dot_S289x768_S768x768_S289x768_1_0_0_1_n_n_wf : DotDims.WF S289x768 S768x768 S289x768 [1] [0] [0] [1] [] []
  dot_S577x768_S768x768_S577x768_1_0_0_1_n_n_wf : DotDims.WF S577x768 S768x768 S577x768 [1] [0] [0] [1] [] []
  dot_S289x64_S577x64_S289x577_1_1_0_0_n_n_wf : DotDims.WF S289x64 S577x64 S289x577 [1] [1] [0] [0] [] []
  dot_S289x577_S577x64_S289x64_1_0_0_1_n_n_wf : DotDims.WF S289x577 S577x64 S289x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x289x768.size a ≤ S32x289x768.size a
  hwx0_0 : ∀ i : grid0.Coords, EltTy.bits .f32 = 32 ∨ (Rect.block (s := S32x289x768) S1x289x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x577x768.size a ≤ S32x577x768.size a
  hwx0_1 : ∀ i : grid0.Coords, EltTy.bits .f32 = 32 ∨ (Rect.block (s := S32x577x768) S1x577x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x289x768.size a ≤ S32x289x768.size a
  hwx0_8 : ∀ i : grid0.Coords, EltTy.bits .f32 = 32 ∨ (Rect.block (s := S32x289x768) S1x289x768.size (cc0_transform_8 i) (hinb0_8 i)).WholeWords (EltTy.packing .f32)

variable [Facts₀]

def gather_S32x577x768_S289x1_S32x289x768_02_1_n_n_1_1_321768 : GatherDims S32x577x768 S289x1 S32x289x768 where
  offsetDims := [0, 2]
  collapsedSliceDims := [1]
  operandBatchingDims := []
  startIndicesBatchingDims := []
  startIndexMap := [1]
  indexVectorDim := 1
  sliceSizes := ![32, 1, 768]
  wf := gather_S32x577x768_S289x1_S32x289x768_02_1_n_n_1_1_321768_wf
def dot_S289x768_S768x768_S289x768_1_0_0_1_n_n : DotDims S289x768 S768x768 S289x768 where
  lhsContracting := [1]
  rhsContracting := [0]
  lhsNonContracting := [0]
  rhsNonContracting := [1]
  lhsBatch := []
  rhsBatch := []
  wf := dot_S289x768_S768x768_S289x768_1_0_0_1_n_n_wf
def dot_S577x768_S768x768_S577x768_1_0_0_1_n_n : DotDims S577x768 S768x768 S577x768 where
  lhsContracting := [1]
  rhsContracting := [0]
  lhsNonContracting := [0]
  rhsNonContracting := [1]
  lhsBatch := []
  rhsBatch := []
  wf := dot_S577x768_S768x768_S577x768_1_0_0_1_n_n_wf
def dot_S289x64_S577x64_S289x577_1_1_0_0_n_n : DotDims S289x64 S577x64 S289x577 where
  lhsContracting := [1]
  rhsContracting := [1]
  lhsNonContracting := [0]
  rhsNonContracting := [0]
  lhsBatch := []
  rhsBatch := []
  wf := dot_S289x64_S577x64_S289x577_1_1_0_0_n_n_wf
def dot_S289x577_S577x64_S289x64_1_0_0_1_n_n : DotDims S289x577 S577x64 S289x64 where
  lhsContracting := [1]
  rhsContracting := [0]
  lhsNonContracting := [0]
  rhsNonContracting := [1]
  lhsBatch := []
  rhsBatch := []
  wf := dot_S289x577_S577x64_S289x64_1_0_0_1_n_n_wf

abbrev win0_0 : Pipeline.Window sig grid0 :=
  Pipeline.Window.ofSpec (Memref.whole main_v0) S1x289x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x577x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x289x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x577x768 : Shape := ⟨3, ![32, 577, 768]⟩
abbrev S768x768 : Shape := ⟨2, ![768, 768]⟩
abbrev S768 : Shape := ⟨1, ![768]⟩
abbrev S289 : Shape := ⟨1, ![289]⟩
abbrev S1x1x768 : Shape := ⟨3, ![1, 1, 768]⟩
abbrev S32x577x12x64 : Shape := ⟨4, ![32, 577, 12, 64]⟩
abbrev S32x12x577x64 : Shape := ⟨4, ![32, 12, 577, 64]⟩
abbrev S_ : Shape := ⟨0, ![]⟩
abbrev S289x1 : Shape := ⟨2, ![289, 1]⟩
abbrev S32x12x289x64 : Shape := ⟨4, ![32, 12, 289, 64]⟩
abbrev S32x12x289x577 : Shape := ⟨4, ![32, 12, 289, 577]⟩
abbrev S32x12x289 : Shape := ⟨3, ![32, 12, 289]⟩
abbrev S32x12x289x1 : Shape := ⟨4, ![32, 12, 289, 1]⟩
abbrev S32x289x12x64 : Shape := ⟨4, ![32, 289, 12, 64]⟩
abbrev S32x289x768 : Shape := ⟨3, ![32, 289, 768]⟩

abbrev nBuf : Space → Nat
  | .hbm => 56
  | .vmem => 0
  | .smem => 0
  | _ => 0

abbrev bufTy : (tb : Table) → Fin (tcTables nBuf tb) → BufTy
  | .hbm, ⟨0, _⟩ => ⟨S32x577x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S289, .i32⟩
  | .hbm, ⟨8, _⟩ => ⟨S32x577x768, .f32⟩
  | .hbm, ⟨9, _⟩ => ⟨S1x1x768, .f32⟩
  | .hbm, ⟨10, _⟩ => ⟨S32x577x768, .f32⟩
  | .hbm, ⟨11, _⟩ => ⟨S32x577x768, .f32⟩
  | .hbm, ⟨12, _⟩ => ⟨S32x577x12x64, .f32⟩
  | .hbm, ⟨13, _⟩ => ⟨S32x12x577x64, .f32⟩
  | .hbm, ⟨14, _⟩ => ⟨S32x577x768, .f32⟩
  | .hbm, ⟨15, _⟩ => ⟨S1x1x768, .f32⟩
  | .hbm, ⟨16, _⟩ => ⟨S32x577x768, .f32⟩
  | .hbm, ⟨17, _⟩ => ⟨S32x577x768, .f32⟩
  | .hbm, ⟨18, _⟩ => ⟨S32x577x12x64, .f32⟩
  | .hbm, ⟨19, _⟩ => ⟨S32x12x577x64, .f32⟩
  | .hbm, ⟨20, _⟩ => ⟨S32x577x768, .f32⟩
  | .hbm, ⟨21, _⟩ => ⟨S1x1x768, .f32⟩
  | .hbm, ⟨22, _⟩ => ⟨S32x577x768, .f32⟩
  | .hbm, ⟨23, _⟩ => ⟨S32x577x768, .f32⟩
  | .hbm, ⟨24, _⟩ => ⟨S32x577x12x64, .f32⟩
  | .hbm, ⟨25, _⟩ => ⟨S32x12x577x64, .f32⟩
  | .hbm, ⟨26, _⟩ => ⟨S_, .i32⟩
  | .hbm, ⟨27, _⟩ => ⟨S289, .i32⟩
  | .hbm, ⟨28, _⟩ => ⟨S289, .i1⟩
  | .hbm, ⟨29, _⟩ => ⟨S_, .i32⟩
  | .hbm, ⟨30, _⟩ => ⟨S289, .i32⟩
  | .hbm, ⟨31, _⟩ => ⟨S289, .i32⟩
  | .hbm, ⟨32, _⟩ => ⟨S289, .i32⟩
  | .hbm, ⟨33, _⟩ => ⟨S289x1, .i32⟩
  | .hbm, ⟨34, _⟩ => ⟨S32x12x289x64, .f32⟩
  | .hbm, ⟨35, _⟩ => ⟨S32x12x289x577, .f32⟩
  | .hbm, ⟨36, _⟩ => ⟨S_, .f32⟩
  | .hbm, ⟨37, _⟩ => ⟨S32x12x289x577, .f32⟩
  | .hbm, ⟨38, _⟩ => ⟨S32x12x289x577, .f32⟩
  | .hbm, ⟨39, _⟩ => ⟨S_, .f32⟩
  | .hbm, ⟨40, _⟩ => ⟨S32x12x289, .f32⟩
  | .hbm, ⟨41, _⟩ => ⟨S_, .f32⟩
  | .hbm, ⟨42, _⟩ => ⟨S32x12x289, .f32⟩
  | .hbm, ⟨43, _⟩ => ⟨S32x12x289, .f32⟩
  | .hbm, ⟨44, _⟩ => ⟨S32x12x289x1, .f32⟩
  | .hbm, ⟨45, _⟩ => ⟨S32x12x289x577, .f32⟩
  | .hbm, ⟨46, _⟩ => ⟨S32x12x289x577, .f32⟩
  | .hbm, ⟨47, _⟩ => ⟨S32x12x289x577, .f32⟩
  | .hbm, ⟨48, _⟩ => ⟨S_, .f32⟩
  | .hbm, ⟨49, _⟩ => ⟨S32x12x289, .f32⟩
  | .hbm, ⟨50, _⟩ => ⟨S32x12x289x1, .f32⟩
  | .hbm, ⟨51, _⟩ => ⟨S32x12x289x577, .f32⟩
  | .hbm, ⟨52, _⟩ => ⟨S32x12x289x577, .f32⟩
  | .hbm, ⟨53, _⟩ => ⟨S32x12x289x64, .f32⟩
  | .hbm, ⟨54, _⟩ => ⟨S32x289x12x64, .f32⟩
  | .hbm, ⟨55, _⟩ => ⟨S32x289x768, .f32⟩
  | _, _ => ⟨S32x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S32x577x768_0_1_2 : S1x1x768.BroadcastsInDim S32x577x768 (![0, 1, 2] : Fin 3 → Fin S32x577x768.rank)
  shapeCasts_S32x577x768_S32x577x12x64 : S32x577x768.ShapeCasts S32x577x12x64
  transposes_S32x577x12x64_S32x12x577x64_0_2_1_3 : S32x577x12x64.Transposes [0, 2, 1, 3] S32x12x577x64
  bcast_S_S289 : S_.BroadcastsInDim S289 (![] : Fin 0 → Fin S289.rank)
  bcast_S289_S289x1_0 : S289.BroadcastsInDim S289x1 (![0] : Fin 1 → Fin S289x1.rank)
  bcast_S_S32x12x289x577 : S_.BroadcastsInDim S32x12x289x577 (![] : Fin 0 → Fin S32x12x289x577.rank)
  reducesTo_S32x12x289x577_S32x12x289_d3 : S32x12x289x577.ReducesTo [3] S32x12x289
  h_S_ : 0 < S_.numel
  bcast_S_S32x12x289 : S_.BroadcastsInDim S32x12x289 (![] : Fin 0 → Fin S32x12x289.rank)
  bcast_S32x12x289_S32x12x289x1_0_1_2 : S32x12x289.BroadcastsInDim S32x12x289x1 (![0, 1, 2] : Fin 3 → Fin S32x12x289x1.rank)
  bcast_S32x12x289x1_S32x12x289x577_0_1_2_3 : S32x12x289x1.BroadcastsInDim S32x12x289x577 (![0, 1, 2, 3] : Fin 4 → Fin S32x12x289x577.rank)
  transposes_S32x12x289x64_S32x289x12x64_0_2_1_3 : S32x12x289x64.Transposes [0, 2, 1, 3] S32x289x12x64
  shapeCasts_S32x289x12x64_S32x289x768 : S32x289x12x64.ShapeCasts S32x289x768
  dot_S32x577x768_S768x768_S32x577x768_2_1_01_0_n_n_wf : DotDims.WF S32x577x768 S768x768 S32x577x768 [2] [1] [0, 1] [0] [] []
  gather_S32x12x577x64_S289x1_S32x12x289x64_013_2_n_n_2_1_3212164_wf : GatherDims.WF S32x12x577x64 S289x1 S32x12x289x64 [0, 1, 3] [2] [] [2] [] 1 ![32, 12, 1, 64]
  dot_S32x12x289x64_S32x12x577x64_S32x12x289x577_3_3_2_2_01_01_wf : DotDims.WF S32x12x289x64 S32x12x577x64 S32x12x289x577 [3] [3] [2] [2] [0, 1] [0, 1]
  dot_S32x12x289x577_S32x12x577x64_S32x12x289x64_3_2_2_3_01_01_wf : DotDims.WF S32x12x289x577 S32x12x577x64 S32x12x289x64 [3] [2] [2] [3] [0, 1] [0, 1]

variable [Facts₀]

def dot_S32x577x768_S768x768_S32x577x768_2_1_01_0_n_n : DotDims S32x577x768 S768x768 S32x577x768 where
  lhsContracting := [2]
  rhsContracting := [1]
  lhsNonContracting := [0, 1]
  rhsNonContracting := [0]
  lhsBatch := []
  rhsBatch := []
  wf := dot_S32x577x768_S768x768_S32x577x768_2_1_01_0_n_n_wf
def gather_S32x12x577x64_S289x1_S32x12x289x64_013_2_n_n_2_1_3212164 : GatherDims S32x12x577x64 S289x1 S32x12x289x64 where
  offsetDims := [0, 1, 3]
  collapsedSliceDims := [2]
  operandBatchingDims := []
  startIndicesBatchingDims := []
  startIndexMap := [2]
  indexVectorDim := 1
  sliceSizes := ![32, 12, 1, 64]
  wf := gather_S32x12x577x64_S289x1_S32x12x289x64_013_2_n_n_2_1_3212164_wf
def dot_S32x12x289x64_S32x12x577x64_S32x12x289x577_3_3_2_2_01_01 : DotDims S32x12x289x64 S32x12x577x64 S32x12x289x577 where
  lhsContracting := [3]
  rhsContracting := [3]
  lhsNonContracting := [2]
  rhsNonContracting := [2]
  lhsBatch := [0, 1]
  rhsBatch := [0, 1]
  wf := dot_S32x12x289x64_S32x12x577x64_S32x12x289x577_3_3_2_2_01_01_wf
def dot_S32x12x289x577_S32x12x577x64_S32x12x289x64_3_2_2_3_01_01 : DotDims S32x12x289x577 S32x12x577x64 S32x12x289x64 where
  lhsContracting := [3]
  rhsContracting := [2]
  lhsNonContracting := [2]
  rhsNonContracting := [3]
  lhsBatch := [0, 1]
  rhsBatch := [0, 1]
  wf := dot_S32x12x289x577_S32x12x577x64_S32x12x289x64_3_2_2_3_01_01_wf

class Facts : Prop extends Facts₀ where

variable [Facts]
-- ==== Proof.KernelDots.lean ====
/-
  The kernel's four matrix products read at an output index, at the ideal values.

  A product into a zero accumulator is, at an output index, the sum over the one contracted coordinate of the two
  operands' entries.  Each product's record says which axis of each operand is contracted; read at an output index
  written by coordinates, the operand indices are coordinates again:
    the projections   [r, 768] × [768, 768] → [r, 768]:   out (i, f) = ∑ e, l (i, e) · r (e, f)      (r = 289 or 577)
    the scores        [289, 64] × [577, 64] → [289, 577]: out (i, j) = ∑ d, l (i, d) · r (j, d)
    the weighted sum  [289, 577] × [577, 64] → [289, 64]: out (i, d) = ∑ j, l (i, j) · r (j, d)
-/
import proofs.«411319_j90933047591130_3_alg».proof.Proof.Gen.KernelIdeal
import Idealize.ShloMosaic.Lib.ValueIdx
import Idealize.ShloMosaic.PureOps.Ideal.Laws

noncomputable section

namespace Cert.KernelDots

open Cert.KernelIdeal Idealize.ShloMosaic Idealize.ShloMosaic.ValueIdx

/-! ## The query projection: 289 kept rows times the transposed weight, contracted over the 768 input features -/

theorem projQ_lhs_0 (i : S289x768.Idx) (q : dot_S289x768_S768x768_S289x768_1_0_0_1_n_n.contr.Idx) :
    (dot_S289x768_S768x768_S289x768_1_0_0_1_n_n.lhsIdx i q 0).val = (i 0).val := by
  unfold DotDims.lhsIdx
  rw [dif_neg (show ¬(0 : Fin S289x768.rank) ∈ dot_S289x768_S768x768_S289x768_1_0_0_1_n_n.lhsBatch by decide), dif_pos (show (0 : Fin S289x768.rank) ∈ dot_S289x768_S768x768_S289x768_1_0_0_1_n_n.lhsNonContracting by decide)]
  rfl
theorem projQ_lhs_1 (i : S289x768.Idx) (q : dot_S289x768_S768x768_S289x768_1_0_0_1_n_n.contr.Idx) :
    (dot_S289x768_S768x768_S289x768_1_0_0_1_n_n.lhsIdx i q 1).val = (q ⟨0, by decide⟩).val :=
  dot_S289x768_S768x768_S289x768_1_0_0_1_n_n.lhsIdx_val_of_single rfl i q
theorem projQ_rhs_0 (i : S289x768.Idx) (q : dot_S289x768_S768x768_S289x768_1_0_0_1_n_n.contr.Idx) :
    (dot_S289x768_S768x768_S289x768_1_0_0_1_n_n.rhsIdx i q 0).val = (q ⟨0, by decide⟩).val :=
  dot_S289x768_S768x768_S289x768_1_0_0_1_n_n.rhsIdx_val_of_single rfl i q
theorem projQ_rhs_1 (i : S289x768.Idx) (q : dot_S289x768_S768x768_S289x768_1_0_0_1_n_n.contr.Idx) :
    (dot_S289x768_S768x768_S289x768_1_0_0_1_n_n.rhsIdx i q 1).val = (i 1).val := by
  unfold DotDims.rhsIdx
  rw [dif_neg (show ¬(1 : Fin S768x768.rank) ∈ dot_S289x768_S768x768_S289x768_1_0_0_1_n_n.rhsBatch by decide), dif_pos (show (1 : Fin S768x768.rank) ∈ dot_S289x768_S768x768_S289x768_1_0_0_1_n_n.rhsNonContracting by decide)]
  rfl

/-- The query projection: 289 kept rows times the transposed weight, contracted over the 768 input features, read at `(a, b)`. -/
theorem projQ {φ₁ φ₂ : FTy} (l : FVec Ideal S289x768 φ₁) (r : FVec Ideal S768x768 φ₂) (a : Fin 289) (b : Fin 768) :
    matmul dot_S289x768_S768x768_S289x768_1_0_0_1_n_n none l r (constant S289x768 .f32 0x00000000#32) (ix2 a b)
      = ∑ k : Fin 768, l (ix2 a k) * r (ix2 k b) := by
  simp only [matmul]
  rw [Ideal.matmul_constant_zero_apply, ← Equiv.sum_comp (contrEquiv1 dot_S289x768_S768x768_S289x768_1_0_0_1_n_n 768 rfl rfl).symm]
  refine Finset.sum_congr rfl fun k _ => ?_
  have hk := contrEquiv1_symm_val dot_S289x768_S768x768_S289x768_1_0_0_1_n_n 768 rfl rfl k
  have el : dot_S289x768_S768x768_S289x768_1_0_0_1_n_n.lhsIdx (ix2 a b) ((contrEquiv1 dot_S289x768_S768x768_S289x768_1_0_0_1_n_n 768 rfl rfl).symm k) = ix2 a k := funext fun c => Fin.ext (by
    match c with
    | ⟨0, _⟩ => exact projQ_lhs_0 _ _
    | ⟨1, _⟩ => exact (projQ_lhs_1 _ _).trans hk)
  have er : dot_S289x768_S768x768_S289x768_1_0_0_1_n_n.rhsIdx (ix2 a b) ((contrEquiv1 dot_S289x768_S768x768_S289x768_1_0_0_1_n_n 768 rfl rfl).symm k) = ix2 k b := funext fun c => Fin.ext (by
    match c with
    | ⟨0, _⟩ => exact (projQ_rhs_0 _ _).trans hk
    | ⟨1, _⟩ => exact projQ_rhs_1 _ _)
  rw [el, er]

/-! ## The key and value projections: 577 rows times the transposed weight, contracted over the 768 input features -/

theorem projKV_lhs_0 (i : S577x768.Idx) (q : dot_S577x768_S768x768_S577x768_1_0_0_1_n_n.contr.Idx) :
    (dot_S577x768_S768x768_S577x768_1_0_0_1_n_n.lhsIdx i q 0).val = (i 0).val := by
  unfold DotDims.lhsIdx
  rw [dif_neg (show ¬(0 : Fin S577x768.rank) ∈ dot_S577x768_S768x768_S577x768_1_0_0_1_n_n.lhsBatch by decide), dif_pos (show (0 : Fin S577x768.rank) ∈ dot_S577x768_S768x768_S577x768_1_0_0_1_n_n.lhsNonContracting by decide)]
  rfl
theorem projKV_lhs_1 (i : S577x768.Idx) (q : dot_S577x768_S768x768_S577x768_1_0_0_1_n_n.contr.Idx) :
    (dot_S577x768_S768x768_S577x768_1_0_0_1_n_n.lhsIdx i q 1).val = (q ⟨0, by decide⟩).val :=
  dot_S577x768_S768x768_S577x768_1_0_0_1_n_n.lhsIdx_val_of_single rfl i q
theorem projKV_rhs_0 (i : S577x768.Idx) (q : dot_S577x768_S768x768_S577x768_1_0_0_1_n_n.contr.Idx) :
    (dot_S577x768_S768x768_S577x768_1_0_0_1_n_n.rhsIdx i q 0).val = (q ⟨0, by decide⟩).val :=
  dot_S577x768_S768x768_S577x768_1_0_0_1_n_n.rhsIdx_val_of_single rfl i q
theorem projKV_rhs_1 (i : S577x768.Idx) (q : dot_S577x768_S768x768_S577x768_1_0_0_1_n_n.contr.Idx) :
    (dot_S577x768_S768x768_S577x768_1_0_0_1_n_n.rhsIdx i q 1).val = (i 1).val := by
  unfold DotDims.rhsIdx
  rw [dif_neg (show ¬(1 : Fin S768x768.rank) ∈ dot_S577x768_S768x768_S577x768_1_0_0_1_n_n.rhsBatch by decide), dif_pos (show (1 : Fin S768x768.rank) ∈ dot_S577x768_S768x768_S577x768_1_0_0_1_n_n.rhsNonContracting by decide)]
  rfl

/-- The key and value projections: 577 rows times the transposed weight, contracted over the 768 input features, read at `(a, b)`. -/
theorem projKV {φ₁ φ₂ : FTy} (l : FVec Ideal S577x768 φ₁) (r : FVec Ideal S768x768 φ₂) (a : Fin 577) (b : Fin 768) :
    matmul dot_S577x768_S768x768_S577x768_1_0_0_1_n_n none l r (constant S577x768 .f32 0x00000000#32) (ix2 a b)
      = ∑ k : Fin 768, l (ix2 a k) * r (ix2 k b) := by
  simp only [matmul]
  rw [Ideal.matmul_constant_zero_apply, ← Equiv.sum_comp (contrEquiv1 dot_S577x768_S768x768_S577x768_1_0_0_1_n_n 768 rfl rfl).symm]
  refine Finset.sum_congr rfl fun k _ => ?_
  have hk := contrEquiv1_symm_val dot_S577x768_S768x768_S577x768_1_0_0_1_n_n 768 rfl rfl k
  have el : dot_S577x768_S768x768_S577x768_1_0_0_1_n_n.lhsIdx (ix2 a b) ((contrEquiv1 dot_S577x768_S768x768_S577x768_1_0_0_1_n_n 768 rfl rfl).symm k) = ix2 a k := funext fun c => Fin.ext (by
    match c with
    | ⟨0, _⟩ => exact projKV_lhs_0 _ _
    | ⟨1, _⟩ => exact (projKV_lhs_1 _ _).trans hk)
  have er : dot_S577x768_S768x768_S577x768_1_0_0_1_n_n.rhsIdx (ix2 a b) ((contrEquiv1 dot_S577x768_S768x768_S577x768_1_0_0_1_n_n 768 rfl rfl).symm k) = ix2 k b := funext fun c => Fin.ext (by
    match c with
    | ⟨0, _⟩ => exact (projKV_rhs_0 _ _).trans hk
    | ⟨1, _⟩ => exact projKV_rhs_1 _ _)
  rw [el, er]

/-! ## The scores: query rows against key rows, contracted over the head's 64 coordinates -/

theorem scores_lhs_0 (i : S289x577.Idx) (q : dot_S289x64_S577x64_S289x577_1_1_0_0_n_n.contr.Idx) :
    (dot_S289x64_S577x64_S289x577_1_1_0_0_n_n.lhsIdx i q 0).val = (i 0).val := by
  unfold DotDims.lhsIdx
  rw [dif_neg (show ¬(0 : Fin S289x64.rank) ∈ dot_S289x64_S577x64_S289x577_1_1_0_0_n_n.lhsBatch by decide), dif_pos (show (0 : Fin S289x64.rank) ∈ dot_S289x64_S577x64_S289x577_1_1_0_0_n_n.lhsNonContracting by decide)]
  rfl
theorem scores_lhs_1 (i : S289x577.Idx) (q : dot_S289x64_S577x64_S289x577_1_1_0_0_n_n.contr.Idx) :
    (dot_S289x64_S577x64_S289x577_1_1_0_0_n_n.lhsIdx i q 1).val = (q ⟨0, by decide⟩).val :=
  dot_S289x64_S577x64_S289x577_1_1_0_0_n_n.lhsIdx_val_of_single rfl i q
theorem scores_rhs_0 (i : S289x577.Idx) (q : dot_S289x64_S577x64_S289x577_1_1_0_0_n_n.contr.Idx) :
    (dot_S289x64_S577x64_S289x577_1_1_0_0_n_n.rhsIdx i q 0).val = (i 1).val := by
  unfold DotDims.rhsIdx
  rw [dif_neg (show ¬(0 : Fin S577x64.rank) ∈ dot_S289x64_S577x64_S289x577_1_1_0_0_n_n.rhsBatch by decide), dif_pos (show (0 : Fin S577x64.rank) ∈ dot_S289x64_S577x64_S289x577_1_1_0_0_n_n.rhsNonContracting by decide)]
  rfl
theorem scores_rhs_1 (i : S289x577.Idx) (q : dot_S289x64_S577x64_S289x577_1_1_0_0_n_n.contr.Idx) :
    (dot_S289x64_S577x64_S289x577_1_1_0_0_n_n.rhsIdx i q 1).val = (q ⟨0, by decide⟩).val :=
  dot_S289x64_S577x64_S289x577_1_1_0_0_n_n.rhsIdx_val_of_single rfl i q

/-- The scores: query rows against key rows, contracted over the head's 64 coordinates, read at `(a, b)`. -/
theorem scores {φ₁ φ₂ : FTy} (l : FVec Ideal S289x64 φ₁) (r : FVec Ideal S577x64 φ₂) (a : Fin 289) (b : Fin 577) :
    matmul dot_S289x64_S577x64_S289x577_1_1_0_0_n_n none l r (constant S289x577 .f32 0x00000000#32) (ix2 a b)
      = ∑ k : Fin 64, l (ix2 a k) * r (ix2 b k) := by
  simp only [matmul]
  rw [Ideal.matmul_constant_zero_apply, ← Equiv.sum_comp (contrEquiv1 dot_S289x64_S577x64_S289x577_1_1_0_0_n_n 64 rfl rfl).symm]
  refine Finset.sum_congr rfl fun k _ => ?_
  have hk := contrEquiv1_symm_val dot_S289x64_S577x64_S289x577_1_1_0_0_n_n 64 rfl rfl k
  have el : dot_S289x64_S577x64_S289x577_1_1_0_0_n_n.lhsIdx (ix2 a b) ((contrEquiv1 dot_S289x64_S577x64_S289x577_1_1_0_0_n_n 64 rfl rfl).symm k) = ix2 a k := funext fun c => Fin.ext (by
    match c with
    | ⟨0, _⟩ => exact scores_lhs_0 _ _
    | ⟨1, _⟩ => exact (scores_lhs_1 _ _).trans hk)
  have er : dot_S289x64_S577x64_S289x577_1_1_0_0_n_n.rhsIdx (ix2 a b) ((contrEquiv1 dot_S289x64_S577x64_S289x577_1_1_0_0_n_n 64 rfl rfl).symm k) = ix2 b k := funext fun c => Fin.ext (by
    match c with
    | ⟨0, _⟩ => exact scores_rhs_0 _ _
    | ⟨1, _⟩ => exact (scores_rhs_1 _ _).trans hk)
  rw [el, er]

/-! ## The weighted sum: softmax weights times the head's value columns, contracted over the 577 keys -/

theorem mix_lhs_0 (i : S289x64.Idx) (q : dot_S289x577_S577x64_S289x64_1_0_0_1_n_n.contr.Idx) :
    (dot_S289x577_S577x64_S289x64_1_0_0_1_n_n.lhsIdx i q 0).val = (i 0).val := by
  unfold DotDims.lhsIdx
  rw [dif_neg (show ¬(0 : Fin S289x577.rank) ∈ dot_S289x577_S577x64_S289x64_1_0_0_1_n_n.lhsBatch by decide), dif_pos (show (0 : Fin S289x577.rank) ∈ dot_S289x577_S577x64_S289x64_1_0_0_1_n_n.lhsNonContracting by decide)]
  rfl
theorem mix_lhs_1 (i : S289x64.Idx) (q : dot_S289x577_S577x64_S289x64_1_0_0_1_n_n.contr.Idx) :
    (dot_S289x577_S577x64_S289x64_1_0_0_1_n_n.lhsIdx i q 1).val = (q ⟨0, by decide⟩).val :=
  dot_S289x577_S577x64_S289x64_1_0_0_1_n_n.lhsIdx_val_of_single rfl i q
theorem mix_rhs_0 (i : S289x64.Idx) (q : dot_S289x577_S577x64_S289x64_1_0_0_1_n_n.contr.Idx) :
    (dot_S289x577_S577x64_S289x64_1_0_0_1_n_n.rhsIdx i q 0).val = (q ⟨0, by decide⟩).val :=
  dot_S289x577_S577x64_S289x64_1_0_0_1_n_n.rhsIdx_val_of_single rfl i q
theorem mix_rhs_1 (i : S289x64.Idx) (q : dot_S289x577_S577x64_S289x64_1_0_0_1_n_n.contr.Idx) :
    (dot_S289x577_S577x64_S289x64_1_0_0_1_n_n.rhsIdx i q 1).val = (i 1).val := by
  unfold DotDims.rhsIdx
  rw [dif_neg (show ¬(1 : Fin S577x64.rank) ∈ dot_S289x577_S577x64_S289x64_1_0_0_1_n_n.rhsBatch by decide), dif_pos (show (1 : Fin S577x64.rank) ∈ dot_S289x577_S577x64_S289x64_1_0_0_1_n_n.rhsNonContracting by decide)]
  rfl

/-- The weighted sum: softmax weights times the head's value columns, contracted over the 577 keys, read at `(a, b)`. -/
theorem mix {φ₁ φ₂ : FTy} (l : FVec Ideal S289x577 φ₁) (r : FVec Ideal S577x64 φ₂) (a : Fin 289) (b : Fin 64) :
    matmul dot_S289x577_S577x64_S289x64_1_0_0_1_n_n none l r (constant S289x64 .f32 0x00000000#32) (ix2 a b)
      = ∑ k : Fin 577, l (ix2 a k) * r (ix2 k b) := by
  simp only [matmul]
  rw [Ideal.matmul_constant_zero_apply, ← Equiv.sum_comp (contrEquiv1 dot_S289x577_S577x64_S289x64_1_0_0_1_n_n 577 rfl rfl).symm]
  refine Finset.sum_congr rfl fun k _ => ?_
  have hk := contrEquiv1_symm_val dot_S289x577_S577x64_S289x64_1_0_0_1_n_n 577 rfl rfl k
  have el : dot_S289x577_S577x64_S289x64_1_0_0_1_n_n.lhsIdx (ix2 a b) ((contrEquiv1 dot_S289x577_S577x64_S289x64_1_0_0_1_n_n 577 rfl rfl).symm k) = ix2 a k := funext fun c => Fin.ext (by
    match c with
    | ⟨0, _⟩ => exact mix_lhs_0 _ _
    | ⟨1, _⟩ => exact (mix_lhs_1 _ _).trans hk)
  have er : dot_S289x577_S577x64_S289x64_1_0_0_1_n_n.rhsIdx (ix2 a b) ((contrEquiv1 dot_S289x577_S577x64_S289x64_1_0_0_1_n_n 577 rfl rfl).symm k) = ix2 k b := funext fun c => Fin.ext (by
    match c with
    | ⟨0, _⟩ => exact (mix_rhs_0 _ _).trans hk
    | ⟨1, _⟩ => exact mix_rhs_1 _ _)
  rw [el, er]

end Cert.KernelDots

end
-- ==== Proof.Attention.lean ====
/-
  What the attention layer computes, as one function of its argument arrays, index by index.

  The arrays: hidden states x : [32, 577, 768]; three weight matrices W : [768, 768] with their biases b : [768]; and a
  vector of 289 row indices.  A token's projection is  proj x W b n s f = (∑ e, x[n,s,e] · W[f,e]) + b[f].
  The 768 features are 12 heads of 64: feature 64·h + d is coordinate d of head h.  For batch n, kept row i and head h
  the scores against the 577 keys are  s j = (∑ d, q[n, r i, 64h+d] · k[n, j, 64h+d]) · c,  the weights are the
  softmax  exp (s j − M) / ∑ j', exp (s j' − M)  with M the largest score, and the output entry at feature 64·h + d is
  ∑ j, weight j · v[n, j, 64h+d].  Here r i is the row the i-th index names: a negative index counts from the end
  (577 is added), and the result is read as a signed number and kept inside [0, 576].

  The scale c and the fold's starting value are kept as the two float words both programs print; neither is evaluated.
-/
import Idealize.ShloMosaic.PureOps.Ideal
import Idealize.ShloMosaic.Lib.ValueIdx

noncomputable section

namespace Cert.Attn

open Idealize.ShloMosaic Idealize.ShloMosaic.ValueIdx

/-- The scale 1/8 = 1/√64, as the word both programs carry. -/
abbrev scale : EReal := Ideal.ofBits .f32 0x3E000000#32
/-- The value a row's maximum is folded from, as the word both programs carry. -/
abbrev floor : EReal := Ideal.ofBits .f32 0xFF800000#32

/-- Feature `64·h + d`: coordinate `d` of head `h`. -/
def col (h : Fin 12) (d : Fin 64) : Fin 768 := ⟨64 * h.val + d.val, by omega⟩

/-- The head of a feature and its coordinate inside the head. -/
def headOf (f : Fin 768) : Fin 12 := ⟨f.val / 64, by omega⟩
def coordOf (f : Fin 768) : Fin 64 := ⟨f.val % 64, by omega⟩

theorem col_headOf_coordOf (f : Fin 768) : col (headOf f) (coordOf f) = f :=
  Fin.ext (by show 64 * (f.val / 64) + f.val % 64 = f.val; omega)

/-! ## The row an index names -/

/-- A negative index counts from the end: 577 is added to it. -/
def wrap (a : BitVec 32) : BitVec 32 := Scalar.select (IntOp.cmpi .slt a 0#32) (IntOp.addi a 577#32) a

/-- The row read at a (wrapped) index word: the word as a signed number, kept inside `[0, 576]`. -/
def rowAt (w : BitVec 32) : Fin 577 := ⟨min w.toInt.toNat 576, by omega⟩

/-- The row the `i`-th index names. -/
def row (idx : (⟨1, ![289]⟩ : Shape).Idx → BitVec 32) (i : Fin 289) : Fin 577 := rowAt (wrap (idx (ix1 i)))

/-! ## One head's output entry, from its query row, its keys and one value column -/

/-- The scaled scores of one query row `q` against the keys `k`. -/
def score (q : Fin 64 → EReal) (k : Fin 577 → Fin 64 → EReal) (j : Fin 577) : EReal :=
  (∑ d : Fin 64, q d * k j d) * scale

/-- The largest of the scores (folded from `floor`). -/
def top (s : Fin 577 → EReal) : EReal := (Finset.univ : Finset (Fin 577)).fold max floor s

/-- The softmax weight of key `j`. -/
def weight (s : Fin 577 → EReal) (j : Fin 577) : EReal :=
  Ideal.div (Ideal.exp (s j - top s)) (∑ j' : Fin 577, Ideal.exp (s j' - top s))

/-- One output entry: the weighted sum of a value column. -/
def entry (q : Fin 64 → EReal) (k : Fin 577 → Fin 64 → EReal) (v : Fin 577 → EReal) : EReal :=
  ∑ j : Fin 577, weight (score q k) j * v j

/-! ## The whole result -/

/-- A token's linear projection at output feature `f`: `x Wᵀ + b`. -/
def proj (x : (⟨3, ![32, 577, 768]⟩ : Shape).Idx → EReal) (W : (⟨2, ![768, 768]⟩ : Shape).Idx → EReal)
    (b : (⟨1, ![768]⟩ : Shape).Idx → EReal) (n : Fin 32) (s : Fin 577) (f : Fin 768) : EReal :=
  (∑ e : Fin 768, x (ix3 n s e) * W (ix2 f e)) + b (ix1 f)

/-- The output at batch `n`, kept row `i`, head `h`, coordinate `d`, for a row map `r`. -/
def out (x : (⟨3, ![32, 577, 768]⟩ : Shape).Idx → EReal)
    (Wq : (⟨2, ![768, 768]⟩ : Shape).Idx → EReal) (bq : (⟨1, ![768]⟩ : Shape).Idx → EReal)
    (Wk : (⟨2, ![768, 768]⟩ : Shape).Idx → EReal) (bk : (⟨1, ![768]⟩ : Shape).Idx → EReal)
    (Wv : (⟨2, ![768, 768]⟩ : Shape).Idx → EReal) (bv : (⟨1, ![768]⟩ : Shape).Idx → EReal)
    (r : Fin 289 → Fin 577) (n : Fin 32) (i : Fin 289) (h : Fin 12) (d : Fin 64) : EReal :=
  entry (fun d' => proj x Wq bq n (r i) (col h d')) (fun j d' => proj x Wk bk n j (col h d'))
    (fun j => proj x Wv bv n j (col h d))

/-- The result array `[32, 289, 768]` as one function of the seven float arrays and the index vector. -/
def result (x : (⟨3, ![32, 577, 768]⟩ : Shape).Idx → EReal)
    (Wq : (⟨2, ![768, 768]⟩ : Shape).Idx → EReal) (bq : (⟨1, ![768]⟩ : Shape).Idx → EReal)
    (Wk : (⟨2, ![768, 768]⟩ : Shape).Idx → EReal) (bk : (⟨1, ![768]⟩ : Shape).Idx → EReal)
    (Wv : (⟨2, ![768, 768]⟩ : Shape).Idx → EReal) (bv : (⟨1, ![768]⟩ : Shape).Idx → EReal)
    (idx : (⟨1, ![289]⟩ : Shape).Idx → BitVec 32) : (⟨3, ![32, 289, 768]⟩ : Shape).Idx → EReal :=
  fun y => out x Wq bq Wk bk Wv bv (row idx) (y 0) (y 1) (headOf (y 2)) (coordOf (y 2))

end Cert.Attn

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.KernelHead.lean ====
/-
  One attention head of the kernel body, as a function of the projected query block qb : [289, 768], key block
  kb : [577, 768] and value block vv : [577, 768], and its value at an index.

  Head number n works on columns 64·n … 64·n + 63.  Its scores are the product of the query and key slices over the 64
  coordinates, times 1/8; a row of scores is shifted by its largest entry, exponentiated, and divided by the row's sum;
  the result multiplies the value slice.  So at (i, d) the head's output is  ∑ j, weight j · vv (j, 64·n + d)  with the
  softmax weights of the score row  j ↦ (∑ d', qb (i, 64·n + d') · kb (j, 64·n + d')) · 1/8.  The body spells the twelve
  heads out one after the other, some of them cut across several named terms; each is this one function at its own offset.
-/
import proofs.«411319_j90933047591130_3_alg».proof.Proof.Gen.KernelIdeal.Skeleton
import proofs.«411319_j90933047591130_3_alg».proof.Proof.KernelDots
import proofs.«411319_j90933047591130_3_alg».proof.Proof.Attention
import proofs.«411319_j90933047591130_3_alg».proof.Proof.LibKeepdims
import Idealize.ShloMosaic.Lib.ValueLayout
import Idealize.ShloMosaic.PureOps.Ideal.Laws

noncomputable section

namespace Cert.KernelHead

open Cert.KernelIdeal Cert.KernelIdeal.Gen Idealize.ShloMosaic Idealize.ShloMosaic.ValueIdx

/-! ## Row reductions of a score block -/

/-- The index a row reduction reads: row `i`, column `k`. -/
theorem lift_row (i : Fin 289) (k : Fin 577) : reduces_S289x577_S289.lift (ix1 i) k = ix2 i k :=
  funext fun a => Fin.ext (by match a with | ⟨0, _⟩ => rfl | ⟨1, _⟩ => rfl)

/-- A row's largest entry. -/
theorem rowmax_apply (s : FVec Ideal S289x577 .f32) (i : Fin 289) :
    multiReduction .maximumf [1] S289 s 0xFF800000#32 reduces_S289x577_S289 (.inl rfl) rfl (ix1 i)
      = Cert.Attn.top (fun j => s (ix2 i j)) := by
  refine (Ideal.multiReduction_maximumf_single s 0xFF800000#32 reduces_S289x577_S289 (.inl rfl) rfl (ix1 i)).trans ?_
  show (Finset.univ : Finset (Fin 577)).fold max _ _ = _
  unfold Cert.Attn.top
  congr 1
  funext k
  exact congrArg s (lift_row i k)

/-- A row's sum. -/
theorem rowsum_apply (p : FVec Ideal S289x577 .f32) (i : Fin 289) :
    multiReduction .add [1] S289 p 0x00000000#32 reduces_S289x577_S289 (.inl rfl) rfl (ix1 i)
      = ∑ j : Fin 577, p (ix2 i j) := by
  refine (Ideal.multiReduction_add_single p 0x00000000#32 reduces_S289x577_S289 (.inl rfl) rfl (ix1 i)).trans ?_
  show ∑ k : Fin 577, _ = _
  exact Finset.sum_congr rfl fun k _ => congrArg p (lift_row i k)

/-! ## The softmax of a score block, and the weighted sum -/

/-- Every row's largest entry, repeated along the row. -/
def softTop (s : FVec Ideal S289x577 .f32) : FVec Ideal S289x577 .f32 :=
  broadcastTo S289x577 (shapeCast S289x1 (multiReduction .maximumf [1] S289 s 0xFF800000#32 reduces_S289x577_S289 (.inl rfl) rfl)
    shapeCasts_S289_S289x1) broadcasts_S289x1_S289x577

/-- The shifted scores, exponentiated. -/
def softNum (s : FVec Ideal S289x577 .f32) : FVec Ideal S289x577 .f32 := exp (subf s (softTop s))

/-- Every row's sum of those, repeated along the row. -/
def softDen (s : FVec Ideal S289x577 .f32) : FVec Ideal S289x577 .f32 :=
  broadcastTo S289x577 (shapeCast S289x1 (multiReduction .add [1] S289 (softNum s) 0x00000000#32 reduces_S289x577_S289 (.inl rfl) rfl)
    shapeCasts_S289_S289x1) broadcasts_S289x1_S289x577

/-- The softmax weights. -/
def softW (s : FVec Ideal S289x577 .f32) : FVec Ideal S289x577 .f32 := divf (softNum s) (softDen s)

/-- The weights times a value slice. -/
def mixed (v : FVec Ideal S577x64 .f32) (s : FVec Ideal S289x577 .f32) : FVec Ideal S289x64 .f32 :=
  matmul dot_S289x577_S577x64_S289x64_1_0_0_1_n_n none (softW s) v (constant S289x64 .f32 0x00000000#32)

theorem softTop_apply (s : FVec Ideal S289x577 .f32) (i : Fin 289) (j : Fin 577) :
    softTop s (ix2 i j) = Cert.Attn.top (fun j => s (ix2 i j)) :=
  (Cert.Lib.keepdims_apply _ shapeCasts_S289_S289x1 broadcasts_S289x1_S289x577 i j).trans (rowmax_apply s i)

theorem softNum_apply (s : FVec Ideal S289x577 .f32) (i : Fin 289) (j : Fin 577) :
    softNum s (ix2 i j) = Ideal.exp (s (ix2 i j) - Cert.Attn.top (fun j => s (ix2 i j))) := by
  show Ideal.exp (s (ix2 i j) - softTop s (ix2 i j)) = _
  rw [softTop_apply]

theorem softDen_apply (s : FVec Ideal S289x577 .f32) (i : Fin 289) (j : Fin 577) :
    softDen s (ix2 i j) = ∑ j' : Fin 577, Ideal.exp (s (ix2 i j') - Cert.Attn.top (fun j => s (ix2 i j))) := by
  refine ((Cert.Lib.keepdims_apply _ shapeCasts_S289_S289x1 broadcasts_S289x1_S289x577 i j).trans (rowsum_apply (softNum s) i)).trans ?_
  exact Finset.sum_congr rfl fun j' _ => softNum_apply s i j'

theorem softW_apply (s : FVec Ideal S289x577 .f32) (i : Fin 289) (j : Fin 577) :
    softW s (ix2 i j) = Cert.Attn.weight (fun j => s (ix2 i j)) j := by
  show Ideal.div (softNum s (ix2 i j)) (softDen s (ix2 i j)) = _
  rw [softNum_apply, softDen_apply]
  rfl

theorem mixed_apply (v : FVec Ideal S577x64 .f32) (s : FVec Ideal S289x577 .f32) (i : Fin 289) (d : Fin 64) :
    mixed v s (ix2 i d) = ∑ j : Fin 577, Cert.Attn.weight (fun j => s (ix2 i j)) j * v (ix2 j d) := by
  unfold mixed
  refine (Cert.KernelDots.mix _ _ i d).trans ?_
  exact Finset.sum_congr rfl fun j _ => by rw [softW_apply]

/-! ## One head at a column offset -/

/-- The scaled scores of the head that starts at column `o`. -/
def headScores (o : ℕ) (hq : S289x768.Slices ![0, o] S289x64) (hk : S577x768.Slices ![0, o] S577x64)
    (qb : FVec Ideal S289x768 .bf16) (kb : FVec Ideal S577x768 .bf16) : FVec Ideal S289x577 .f32 :=
  mulf (matmul dot_S289x64_S577x64_S289x577_1_1_0_0_n_n none (extractStridedSlice S289x64 ![0, o] qb hq)
      (extractStridedSlice S577x64 ![0, o] kb hk) (constant S289x577 .f32 0x00000000#32))
    (broadcast S289x577 (Scalar.ofBits .f32 0x3E000000#32))

/-- The output block `[289, 64]` of the head that starts at column `o`. -/
def headOut (o : ℕ) (hq : S289x768.Slices ![0, o] S289x64) (hk : S577x768.Slices ![0, o] S577x64)
    (hv : S577x768.Slices ![0, o] S577x64)
    (qb : FVec Ideal S289x768 .bf16) (kb : FVec Ideal S577x768 .bf16) (vv : FVec Ideal S577x768 .f32) : FVec Ideal S289x64 .f32 :=
  mixed (extractStridedSlice S577x64 ![0, o] vv hv) (headScores o hq hk qb kb)

theorem headScores_apply (o : ℕ) (n : Fin 12) (ho : o = 64 * n.val) (hq : S289x768.Slices ![0, o] S289x64)
    (hk : S577x768.Slices ![0, o] S577x64) (qb : FVec Ideal S289x768 .bf16) (kb : FVec Ideal S577x768 .bf16)
    (i : Fin 289) (j : Fin 577) :
    headScores o hq hk qb kb (ix2 i j)
      = Cert.Attn.score (fun d' => qb (ix2 i (Cert.Attn.col n d'))) (fun j d' => kb (ix2 j (Cert.Attn.col n d'))) j := by
  subst ho
  unfold headScores Cert.Attn.score
  show matmul _ none _ _ _ (ix2 i j) * Ideal.ofBits .f32 0x3E000000#32 = _
  rw [Cert.KernelDots.scores]
  congr 1
  refine Finset.sum_congr rfl fun d' _ => ?_
  rw [slice2_axis1_apply (64 * n.val) qb hq i d' (Cert.Attn.col n d') rfl,
    slice2_axis1_apply (64 * n.val) kb hk j d' (Cert.Attn.col n d') rfl]

/-- THE HEAD AT AN INDEX: row `i`, coordinate `d` of head `n`. -/
theorem headOut_apply (o : ℕ) (n : Fin 12) (ho : o = 64 * n.val) (hq : S289x768.Slices ![0, o] S289x64)
    (hk : S577x768.Slices ![0, o] S577x64) (hv : S577x768.Slices ![0, o] S577x64)
    (qb : FVec Ideal S289x768 .bf16) (kb : FVec Ideal S577x768 .bf16) (vv : FVec Ideal S577x768 .f32)
    (i : Fin 289) (d : Fin 64) :
    headOut o hq hk hv qb kb vv (ix2 i d)
      = Cert.Attn.entry (fun d' => qb (ix2 i (Cert.Attn.col n d'))) (fun j d' => kb (ix2 j (Cert.Attn.col n d')))
          (fun j => vv (ix2 j (Cert.Attn.col n d))) := by
  unfold headOut Cert.Attn.entry
  rw [mixed_apply]
  refine Finset.sum_congr rfl fun j _ => ?_
  have hs : (fun j => headScores o hq hk qb kb (ix2 i j))
      = Cert.Attn.score (fun d' => qb (ix2 i (Cert.Attn.col n d'))) (fun j d' => kb (ix2 j (Cert.Attn.col n d'))) :=
    funext fun j => headScores_apply o n ho hq hk qb kb i j
  rw [hs]
  subst ho
  rw [slice2_axis1_apply (64 * n.val) vv hv j d (Cert.Attn.col n d) rfl]

/-! ## The twelve heads of the body are this function at offsets 0, 64, …, 704 -/

/-- Head 0 (columns 0 to 63). -/
theorem head0_eq (v0 : Vec Ideal S1x289x768 .f32) (v3 : Vec Ideal S1x577x768 .f32) (v6 v13 v20 : Vec Ideal S768x768 .bf16) (v9 v16 v23 : Vec Ideal S1x768 .f32) :
    k0_pay8 (F := Ideal) (k0_pay6 v3 v20 v23) (k0_pay7 v0 v3 v6 v9 v13 v16)
      = headOut 0 slices_S289x768_o0_0_S289x64 slices_S577x768_o0_0_S577x64 slices_S577x768_o0_0_S577x64 (k0_pay4 (F := Ideal) v0 v6 v9) (k0_pay5 (F := Ideal) v3 v13 v16) (k0_pay3 (F := Ideal) v3 v20 v23) := rfl

/-- Head 1 (columns 64 to 127). -/
theorem head1_eq (qb : FVec Ideal S289x768 .bf16) (kb : FVec Ideal S577x768 .bf16) (vv : FVec Ideal S577x768 .f32) :
    k0_pay9 (F := Ideal) vv qb kb
      = headOut 64 slices_S289x768_o0_64_S289x64 slices_S577x768_o0_64_S577x64 slices_S577x768_o0_64_S577x64 qb kb vv := rfl

/-- Head 2 (columns 128 to 191). -/
theorem head2_eq (qb : FVec Ideal S289x768 .bf16) (kb : FVec Ideal S577x768 .bf16) (vv : FVec Ideal S577x768 .f32) :
    k0_pay10 (F := Ideal) vv qb kb
      = headOut 128 slices_S289x768_o0_128_S289x64 slices_S577x768_o0_128_S577x64 slices_S577x768_o0_128_S577x64 qb kb vv := rfl

/-- Head 3 (columns 192 to 255). -/
theorem head3_eq (qb : FVec Ideal S289x768 .bf16) (kb : FVec Ideal S577x768 .bf16) (vv : FVec Ideal S577x768 .f32) :
    k0_pay13 (F := Ideal) (k0_pay11 vv) (k0_pay12 qb kb) (Scalar.ofBits .f32 0x3E000000#32)
      = headOut 192 slices_S289x768_o0_192_S289x64 slices_S577x768_o0_192_S577x64 slices_S577x768_o0_192_S577x64 qb kb vv := rfl

/-- Head 4 (columns 256 to 319). -/
theorem head4_eq (qb : FVec Ideal S289x768 .bf16) (kb : FVec Ideal S577x768 .bf16) (vv : FVec Ideal S577x768 .f32) :
    k0_pay14 (F := Ideal) vv qb kb
      = headOut 256 slices_S289x768_o0_256_S289x64 slices_S577x768_o0_256_S577x64 slices_S577x768_o0_256_S577x64 qb kb vv := rfl

/-- Head 5 (columns 320 to 383). -/
theorem head5_eq (qb : FVec Ideal S289x768 .bf16) (kb : FVec Ideal S577x768 .bf16) (vv : FVec Ideal S577x768 .f32) :
    k0_pay15 (F := Ideal) vv qb kb
      = headOut 320 slices_S289x768_o0_320_S289x64 slices_S577x768_o0_320_S577x64 slices_S577x768_o0_320_S577x64 qb kb vv := rfl

/-- Head 6 (columns 384 to 447). -/
theorem head6_eq (qb : FVec Ideal S289x768 .bf16) (kb : FVec Ideal S577x768 .bf16) (vv : FVec Ideal S577x768 .f32) :
    k0_pay19 (F := Ideal) (k0_pay16 qb) (k0_pay17 kb) (k0_pay18 vv)
      = headOut 384 slices_S289x768_o0_384_S289x64 slices_S577x768_o0_384_S577x64 slices_S577x768_o0_384_S577x64 qb kb vv := rfl

/-- Head 7 (columns 448 to 511). -/
theorem head7_eq (qb : FVec Ideal S289x768 .bf16) (kb : FVec Ideal S577x768 .bf16) (vv : FVec Ideal S577x768 .f32) :
    k0_pay20 (F := Ideal) vv qb kb
      = headOut 448 slices_S289x768_o0_448_S289x64 slices_S577x768_o0_448_S577x64 slices_S577x768_o0_448_S577x64 qb kb vv := rfl

/-- Head 8 (columns 512 to 575). -/
theorem head8_eq (qb : FVec Ideal S289x768 .bf16) (kb : FVec Ideal S577x768 .bf16) (vv : FVec Ideal S577x768 .f32) :
    k0_pay21 (F := Ideal) vv qb kb
      = headOut 512 slices_S289x768_o0_512_S289x64 slices_S577x768_o0_512_S577x64 slices_S577x768_o0_512_S577x64 qb kb vv := rfl

/-- Head 9 (columns 576 to 639). -/
theorem head9_eq (qb : FVec Ideal S289x768 .bf16) (kb : FVec Ideal S577x768 .bf16) (vv : FVec Ideal S577x768 .f32) :
    k0_pay22 (F := Ideal) vv qb kb
      = headOut 576 slices_S289x768_o0_576_S289x64 slices_S577x768_o0_576_S577x64 slices_S577x768_o0_576_S577x64 qb kb vv := rfl

/-- Head 10 (columns 640 to 703). -/
theorem head10_eq (qb : FVec Ideal S289x768 .bf16) (kb : FVec Ideal S577x768 .bf16) (vv : FVec Ideal S577x768 .f32) :
    k0_pay23 (F := Ideal) vv qb kb
      = headOut 640 slices_S289x768_o0_640_S289x64 slices_S577x768_o0_640_S577x64 slices_S577x768_o0_640_S577x64 qb kb vv := rfl

/-- Head 11 (columns 704 to 767), whose last product the body's closing term carries. -/
theorem head11_eq (qb : FVec Ideal S289x768 .bf16) (kb : FVec Ideal S577x768 .bf16) (vv : FVec Ideal S577x768 .f32) :
    matmul dot_S289x577_S577x64_S289x64_1_0_0_1_n_n none (divf (k0_pay25 (F := Ideal) qb kb) (k0_pay26 (F := Ideal) qb kb))
        (k0_pay24 (F := Ideal) vv) (constant S289x64 .f32 0x00000000#32)
      = headOut 704 slices_S289x768_o0_704_S289x64 slices_S577x768_o0_704_S577x64 slices_S577x768_o0_704_S577x64 qb kb vv := rfl

end Cert.KernelHead

end
-- ==== Proof.KernelBlock.lean ====
/-
  What the kernel body leaves in its output block, read at an index.

  The body loads the kept rows x0 : [1, 289, 768], all rows x1 : [1, 577, 768], three transposed weights [768, 768] and
  three bias rows [1, 768].  Each projection is  lin x w b (i, f) = (∑ e, x (0, i, e) · w (e, f)) + b (0, f).  The twelve
  heads' outputs [289, 64] are laid side by side along the columns and the result is stored as the block [1, 289, 768]:
  column 64·n + d of the block is coordinate d of head n.  So the block at (u, i, 64·n + d) is head n's entry for row i and
  coordinate d, over the projected query, key and value blocks.
-/
import proofs.«411319_j90933047591130_3_alg».proof.Proof.Gen.KernelIdeal.Frame
import proofs.«411319_j90933047591130_3_alg».proof.Proof.KernelHead
import Idealize.ShloMosaic.Lib.ValueLayout
import Idealize.ShloMosaic.Lib.Pipeline.Value

noncomputable section

namespace Cert.KernelBlock

open Cert.KernelIdeal Cert.KernelIdeal.Gen Cert.KernelHead Idealize.ShloMosaic Idealize.ShloMosaic.ValueIdx

/-! ## The three projections -/

/-- A block of rows times a transposed weight, plus a bias row. -/
def lin {r : ℕ} (x : (⟨3, ![1, r, 768]⟩ : Shape).Idx → EReal) (w : (⟨2, ![768, 768]⟩ : Shape).Idx → EReal)
    (b : (⟨2, ![1, 768]⟩ : Shape).Idx → EReal) (i : Fin r) (f : Fin 768) : EReal :=
  (∑ e : Fin 768, x (ix3 (0 : Fin 1) i e) * w (ix2 e f)) + b (ix2 (0 : Fin 1) f)

/-- The projected queries (their change of float format is the identity on the extended reals). -/
theorem qproj_apply (v0 : Vec Ideal S1x289x768 .f32) (v6 : Vec Ideal S768x768 .bf16) (v9 : Vec Ideal S1x768 .f32)
    (i : Fin 289) (f : Fin 768) : k0_pay4 (F := Ideal) v0 v6 v9 (ix2 i f) = lin v0 v6 v9 i f := by
  unfold k0_pay4 lin
  show matmul (F := Ideal) dot_S289x768_S768x768_S289x768_1_0_0_1_n_n none _ _ _ (ix2 i f) + broadcastTo S289x768 _ _ (ix2 i f) = _
  rw [Cert.KernelDots.projQ, broadcastTo_1b_ab_apply]
  congr 1
  · refine Finset.sum_congr rfl fun e _ => ?_
    show shapeCast S289x768 v0 _ (ix2 i e) * shapeCast S768x768 v6 _ (ix2 e f) = _
    rw [shapeCast_1ab_ab_apply, shapeCast_self]
  · rw [shapeCast_self]

/-- The projected keys. -/
theorem kproj_apply (v3 : Vec Ideal S1x577x768 .f32) (v13 : Vec Ideal S768x768 .bf16) (v16 : Vec Ideal S1x768 .f32)
    (j : Fin 577) (f : Fin 768) : k0_pay5 (F := Ideal) v3 v13 v16 (ix2 j f) = lin v3 v13 v16 j f := by
  unfold k0_pay5 k0_pay2 lin
  show matmul (F := Ideal) dot_S577x768_S768x768_S577x768_1_0_0_1_n_n none _ _ _ (ix2 j f) + broadcastTo S577x768 _ _ (ix2 j f) = _
  rw [Cert.KernelDots.projKV, broadcastTo_1b_ab_apply]
  congr 1
  · refine Finset.sum_congr rfl fun e _ => ?_
    show shapeCast S577x768 v3 _ (ix2 j e) * shapeCast S768x768 v13 _ (ix2 e f) = _
    rw [shapeCast_1ab_ab_apply, shapeCast_self]
  · rw [shapeCast_self]

/-- The projected values. -/
theorem vproj_apply (v3 : Vec Ideal S1x577x768 .f32) (v20 : Vec Ideal S768x768 .bf16) (v23 : Vec Ideal S1x768 .f32)
    (j : Fin 577) (f : Fin 768) : k0_pay3 (F := Ideal) v3 v20 v23 (ix2 j f) = lin v3 v20 v23 j f := by
  unfold k0_pay3 k0_pay2 lin
  show matmul (F := Ideal) dot_S577x768_S768x768_S577x768_1_0_0_1_n_n none _ _ _ (ix2 j f) + broadcastTo S577x768 _ _ (ix2 j f) = _
  rw [Cert.KernelDots.projKV, broadcastTo_1b_ab_apply]
  congr 1
  · refine Finset.sum_congr rfl fun e _ => ?_
    show shapeCast S577x768 v3 _ (ix2 j e) * shapeCast S768x768 v20 _ (ix2 e f) = _
    rw [shapeCast_1ab_ab_apply, shapeCast_self]
  · rw [shapeCast_self]

/-! ## The twelve heads side by side -/

/-- The twelve heads' output blocks, by head number. -/
def heads (qb : FVec Ideal S289x768 .bf16) (kb : FVec Ideal S577x768 .bf16) (vv : FVec Ideal S577x768 .f32) :
    Fin 12 → FVec Ideal S289x64 .f32 :=
  ![headOut 0 slices_S289x768_o0_0_S289x64 slices_S577x768_o0_0_S577x64 slices_S577x768_o0_0_S577x64 qb kb vv,
    headOut 64 slices_S289x768_o0_64_S289x64 slices_S577x768_o0_64_S577x64 slices_S577x768_o0_64_S577x64 qb kb vv,
    headOut 128 slices_S289x768_o0_128_S289x64 slices_S577x768_o0_128_S577x64 slices_S577x768_o0_128_S577x64 qb kb vv,
    headOut 192 slices_S289x768_o0_192_S289x64 slices_S577x768_o0_192_S577x64 slices_S577x768_o0_192_S577x64 qb kb vv,
    headOut 256 slices_S289x768_o0_256_S289x64 slices_S577x768_o0_256_S577x64 slices_S577x768_o0_256_S577x64 qb kb vv,
    headOut 320 slices_S289x768_o0_320_S289x64 slices_S577x768_o0_320_S577x64 slices_S577x768_o0_320_S577x64 qb kb vv,
    headOut 384 slices_S289x768_o0_384_S289x64 slices_S577x768_o0_384_S577x64 slices_S577x768_o0_384_S577x64 qb kb vv,
    headOut 448 slices_S289x768_o0_448_S289x64 slices_S577x768_o0_448_S577x64 slices_S577x768_o0_448_S577x64 qb kb vv,
    headOut 512 slices_S289x768_o0_512_S289x64 slices_S577x768_o0_512_S577x64 slices_S577x768_o0_512_S577x64 qb kb vv,
    headOut 576 slices_S289x768_o0_576_S289x64 slices_S577x768_o0_576_S577x64 slices_S577x768_o0_576_S577x64 qb kb vv,
    headOut 640 slices_S289x768_o0_640_S289x64 slices_S577x768_o0_640_S577x64 slices_S577x768_o0_640_S577x64 qb kb vv,
    headOut 704 slices_S289x768_o0_704_S289x64 slices_S577x768_o0_704_S577x64 slices_S577x768_o0_704_S577x64 qb kb vv]

/-- Head `n` at row `i`, coordinate `d`. -/
theorem heads_apply (qb : FVec Ideal S289x768 .bf16) (kb : FVec Ideal S577x768 .bf16) (vv : FVec Ideal S577x768 .f32)
    (n : Fin 12) (i : Fin 289) (d : Fin 64) :
    heads qb kb vv n (ix2 i d)
      = Cert.Attn.entry (fun d' => qb (ix2 i (Cert.Attn.col n d'))) (fun j d' => kb (ix2 j (Cert.Attn.col n d')))
          (fun j => vv (ix2 j (Cert.Attn.col n d))) := by
  fin_cases n
  · exact headOut_apply 0 0 rfl _ _ _ qb kb vv i d
  · exact headOut_apply 64 1 rfl _ _ _ qb kb vv i d
  · exact headOut_apply 128 2 rfl _ _ _ qb kb vv i d
  · exact headOut_apply 192 3 rfl _ _ _ qb kb vv i d
  · exact headOut_apply 256 4 rfl _ _ _ qb kb vv i d
  · exact headOut_apply 320 5 rfl _ _ _ qb kb vv i d
  · exact headOut_apply 384 6 rfl _ _ _ qb kb vv i d
  · exact headOut_apply 448 7 rfl _ _ _ qb kb vv i d
  · exact headOut_apply 512 8 rfl _ _ _ qb kb vv i d
  · exact headOut_apply 576 9 rfl _ _ _ qb kb vv i d
  · exact headOut_apply 640 10 rfl _ _ _ qb kb vv i d
  · exact headOut_apply 704 11 rfl _ _ _ qb kb vv i d

/-- Twelve blocks `[289, 64]` laid side by side along the columns: column `64·n + d` reads block `n` at column `d`. -/
theorem side_by_side (P : Fin 12 → (S289x64.Idx → EReal)) (xs : List ((s : Shape) × (s.Idx → EReal)))
    (hx : xs = List.ofFn fun n : Fin 12 => (⟨S289x64, P n⟩ : (s : Shape) × (s.Idx → EReal)))
    (h : Shape.Concatenates (xs.map (·.1)) S289x768 1) (i : Fin 289) (n : Fin 12) (d : Fin 64) :
    concatenate S289x768 1 xs h (ix2 i (Cert.Attn.col n d)) = P n (ix2 i d) := by
  subst hx
  exact concatenate_ofFn_apply 1 P h rfl 64 rfl _ n (by show (64 * n.val + d.val) / 64 = n.val; omega) (ix2 i d)
    (by show d.val = (64 * n.val + d.val) % 64; omega)
    (fun b hb => by
      match b with
      | ⟨0, _⟩ => rfl
      | ⟨1, _⟩ => exact absurd rfl hb)

/-- THE STORED VALUE AT AN INDEX: the body's closing term, over its loads, at `(u, i, 64·n + d)`. -/
theorem payload_apply (v0 : Vec Ideal S1x289x768 .f32) (v3 : Vec Ideal S1x577x768 .f32) (v6 v13 v20 : Vec Ideal S768x768 .bf16)
    (v9 v16 v23 : Vec Ideal S1x768 .f32) (u : Fin 1) (i : Fin 289) (n : Fin 12) (d : Fin 64) :
    k0_pay1 (F := Ideal) (k0_pay8 (k0_pay6 v3 v20 v23) (k0_pay7 v0 v3 v6 v9 v13 v16))
        (k0_pay9 (k0_pay3 v3 v20 v23) (k0_pay4 v0 v6 v9) (k0_pay5 v3 v13 v16))
        (k0_pay10 (k0_pay3 v3 v20 v23) (k0_pay4 v0 v6 v9) (k0_pay5 v3 v13 v16))
        (k0_pay13 (k0_pay11 (k0_pay3 v3 v20 v23)) (k0_pay12 (k0_pay4 v0 v6 v9) (k0_pay5 v3 v13 v16)) (Scalar.ofBits .f32 0x3E000000#32))
        (k0_pay14 (k0_pay3 v3 v20 v23) (k0_pay4 v0 v6 v9) (k0_pay5 v3 v13 v16))
        (k0_pay15 (k0_pay3 v3 v20 v23) (k0_pay4 v0 v6 v9) (k0_pay5 v3 v13 v16))
        (k0_pay19 (k0_pay16 (k0_pay4 v0 v6 v9)) (k0_pay17 (k0_pay5 v3 v13 v16)) (k0_pay18 (k0_pay3 v3 v20 v23)))
        (k0_pay20 (k0_pay3 v3 v20 v23) (k0_pay4 v0 v6 v9) (k0_pay5 v3 v13 v16))
        (k0_pay21 (k0_pay3 v3 v20 v23) (k0_pay4 v0 v6 v9) (k0_pay5 v3 v13 v16))
        (k0_pay22 (k0_pay3 v3 v20 v23) (k0_pay4 v0 v6 v9) (k0_pay5 v3 v13 v16))
        (k0_pay23 (k0_pay3 v3 v20 v23) (k0_pay4 v0 v6 v9) (k0_pay5 v3 v13 v16))
        (k0_pay24 (k0_pay3 v3 v20 v23)) (k0_pay25 (k0_pay4 v0 v6 v9) (k0_pay5 v3 v13 v16))
        (k0_pay26 (k0_pay4 v0 v6 v9) (k0_pay5 v3 v13 v16)) (ix3 u i (Cert.Attn.col n d))
      = heads (k0_pay4 (F := Ideal) v0 v6 v9) (k0_pay5 (F := Ideal) v3 v13 v16) (k0_pay3 (F := Ideal) v3 v20 v23) n (ix2 i d) := by
  unfold k0_pay1
  show shapeCast S1x289x768 (concatenate S289x768 1 _ _) _ (ix3 u i (Cert.Attn.col n d)) = _
  refine (shapeCast_ab_1ab_apply _ _ u i (Cert.Attn.col n d)).trans ?_
  exact side_by_side (heads (k0_pay4 (F := Ideal) v0 v6 v9) (k0_pay5 (F := Ideal) v3 v13 v16) (k0_pay3 (F := Ideal) v3 v20 v23)) _ rfl _ i n d

/-! ## The output block -/

theorem hz3 : (![0, 0, 0] : Fin 3 → Nat) = fun _ => 0 := funext fun a => by fin_cases a <;> rfl
theorem hz2 : (![0, 0] : Fin 2 → Nat) = fun _ => 0 := funext fun a => by fin_cases a <;> rfl

/-- THE BLOCK AT AN INDEX: what the body leaves in the output window's buffer, from the eight input blocks. -/
theorem block_apply (x0 : Vec Ideal S1x289x768 .f32) (x1 : Vec Ideal S1x577x768 .f32) (x2 : Vec Ideal S768x768 .bf16)
    (x3 : Vec Ideal S1x768 .f32) (x4 : Vec Ideal S768x768 .bf16) (x5 : Vec Ideal S1x768 .f32) (x6 : Vec Ideal S768x768 .bf16)
    (x7 : Vec Ideal S1x768 .f32) (u : Fin 1) (i : Fin 289) (n : Fin 12) (d : Fin 64) :
    out0_8 (F := Ideal) x0 x1 x2 x3 x4 x5 x6 x7 (ix3 u i (Cert.Attn.col n d))
      = Cert.Attn.entry (fun d' => lin x0 x2 x3 i (Cert.Attn.col n d')) (fun j d' => lin x1 x4 x5 j (Cert.Attn.col n d'))
          (fun j => lin x1 x6 x7 j (Cert.Attn.col n d)) := by
  unfold out0_8
  rw [View.canon_unit_zero hz3]
  simp only [View.ld_unit_zero (S := S1x289x768) hz3, View.ld_unit_zero (S := S1x577x768) hz3,
    View.ld_unit_zero (S := S768x768) hz2, View.ld_unit_zero (S := S1x768) hz2]
  rw [payload_apply, heads_apply]
  simp only [qproj_apply, kproj_apply, vproj_apply]

end Cert.KernelBlock

end
-- ==== Proof.LibHostLine.lean ====
/-
  Three general facts about a straight line of host operations.

  Running a line of operations folds them over the contents of the buffers, the first operation innermost.  So running
  one line and then another is running the second over what the first left.  And the result of an operation with three
  operands listed one by one is its function of the three operands' contents, each at its own reference, so that what is
  known of each operand can be put in its place.  Last, an operation written over typed references moves each value to its
  buffer's own type and back; there and back is the identity.
-/
import Idealize.ShloMosaic.Lib.StableHlo.Run

noncomputable section

namespace Cert.Lib

open Idealize.ShloMosaic Idealize.ShloMosaic.StableHlo Idealize.ShloMosaic.TcCoe

variable {τ : Topo} {sig : RefSig} {Val : EltTy → Type}

/-- A line followed by another: the second runs over what the first left. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a typed reference's buffer type and back are unchanged. -/
theorem ofBuf_toBuf {T : BufTy} (x : TRef sig T) (v : T.Contents Val) : x.ofBuf (x.toBuf v) = v := by
  obtain ⟨r, h, _, _⟩ := x
  subst h
  rfl

/-- The result of a three-operand operation at its result buffer, with each operand's contents at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

end Cert.Lib

end
-- ==== Proof.KernelInputs.lean ====
/-
  What the attention kernel finds in the arrays that host operations wrote before it.

  Before the kernel is launched the program gathers the kept rows of the hidden states, transposes each weight matrix
  (and changes its float format, which on extended reals changes nothing) and turns each bias vector into a one-row
  matrix.  Read at an index these arrays are:
    the gathered rows at (n, i, f)   the hidden states at (n, r i, f), r i the row the i-th index names;
    a transposed weight at (e, f)    the weight at (f, e);
    a bias row at (u, f)             the bias at f.
  The gather is followed by a mask: where the wrapped index falls outside [0, 576] the entry is replaced by a fixed
  word.  Under the precondition every index lies in [-577, 577), so every wrapped index lies in [0, 576], the mask
  is one everywhere, and the gathered value itself is read.
-/
import proofs.«411319_j90933047591130_3_alg».proof.Proof.Gen.KernelIdeal.Frame
import proofs.«411319_j90933047591130_3_alg».proof.Proof.Gen.Pre_finite_inputs
import proofs.«411319_j90933047591130_3_alg».proof.Defs
import proofs.«411319_j90933047591130_3_alg».proof.Proof.Attention
import proofs.«411319_j90933047591130_3_alg».proof.Proof.LibHostLine
import Idealize.ShloMosaic.Lib.ValueLayout
import Idealize.ShloMosaic.Lib.ReduceAll
import Idealize.ShloMosaic.Lib.StableHlo.Predicate

noncomputable section

namespace Cert.KernelInputs

open Idealize.ShloMosaic Idealize.ShloMosaic.ValueIdx Idealize.ShloMosaic.StableHlo
open Cert.KernelIdeal Cert.KernelIdeal.Gen

variable (m : (ℓ : Loc nD τ sig) → Buf (Elt Ideal) ℓ)

/-! ## The transposed weights and the bias rows -/

/-- The query weight transposed (the change of float format is the identity): entry `(e, f)` is the weight at `(f, e)`. -/
theorem wq_T (c : Dev nD) :
    (V m c main_v2 : S768x768.Idx → EReal)
      = fun y => (m ((c.tc : Thread nD τ).loc main_arg1) : S768x768.Idx → EReal) (ix2 (y 1) (y 0)) := by
  dsimp only [Gen.V]
  simp only [Gen.hostOps0, Gen.hostOps0_1, List.flatten_cons, List.flatten_nil, List.append_nil, List.cons_append,
    List.nil_append]
  after_results
  funext y
  obtain ⟨j, i, rfl⟩ : ∃ (j : Fin 768) (i : Fin 768), y = ix2 j i := ⟨y 0, y 1, eq_ix2 y⟩
  exact transpose_ix2_apply (α := EReal) _ _ j i

/-- The key weight transposed (the change of float format is the identity): entry `(e, f)` is the weight at `(f, e)`. -/
theorem wk_T (c : Dev nD) :
    (V m c main_v4 : S768x768.Idx → EReal)
      = fun y => (m ((c.tc : Thread nD τ).loc main_arg3) : S768x768.Idx → EReal) (ix2 (y 1) (y 0)) := by
  dsimp only [Gen.V]
  simp only [Gen.hostOps0, Gen.hostOps0_1, List.flatten_cons, List.flatten_nil, List.append_nil, List.cons_append,
    List.nil_append]
  after_results
  funext y
  obtain ⟨j, i, rfl⟩ : ∃ (j : Fin 768) (i : Fin 768), y = ix2 j i := ⟨y 0, y 1, eq_ix2 y⟩
  exact transpose_ix2_apply (α := EReal) _ _ j i

/-- The value weight transposed (the change of float format is the identity): entry `(e, f)` is the weight at `(f, e)`. -/
theorem wv_T (c : Dev nD) :
    (V m c main_v6 : S768x768.Idx → EReal)
      = fun y => (m ((c.tc : Thread nD τ).loc main_arg5) : S768x768.Idx → EReal) (ix2 (y 1) (y 0)) := by
  dsimp only [Gen.V]
  simp only [Gen.hostOps0, Gen.hostOps0_1, List.flatten_cons, List.flatten_nil, List.append_nil, List.cons_append,
    List.nil_append]
  after_results
  funext y
  obtain ⟨j, i, rfl⟩ : ∃ (j : Fin 768) (i : Fin 768), y = ix2 j i := ⟨y 0, y 1, eq_ix2 y⟩
  exact transpose_ix2_apply (α := EReal) _ _ j i

/-- The query bias as a one-row matrix: entry `(u, f)` is the bias at `f`. -/
theorem bq_row (c : Dev nD) :
    (V m c main_v7 : S1x768.Idx → EReal)
      = fun y => (m ((c.tc : Thread nD τ).loc main_arg2) : S768.Idx → EReal) (ix1 (y 1)) := by
  dsimp only [Gen.V]
  simp only [Gen.hostOps0, Gen.hostOps0_1, List.flatten_cons, List.flatten_nil, List.append_nil, List.cons_append,
    List.nil_append]
  after_results
  funext y
  obtain ⟨u, i, rfl⟩ : ∃ (u : Fin 1) (i : Fin 768), y = ix2 u i := ⟨y 0, y 1, eq_ix2 y⟩
  exact shapeCast_a_1a_apply (α := EReal) _ _ u i

/-- The key bias as a one-row matrix: entry `(u, f)` is the bias at `f`. -/
theorem bk_row (c : Dev nD) :
    (V m c main_v8 : S1x768.Idx → EReal)
      = fun y => (m ((c.tc : Thread nD τ).loc main_arg4) : S768.Idx → EReal) (ix1 (y 1)) := by
  dsimp only [Gen.V]
  simp only [Gen.hostOps0, Gen.hostOps0_1, List.flatten_cons, List.flatten_nil, List.append_nil, List.cons_append,
    List.nil_append]
  after_results
  funext y
  obtain ⟨u, i, rfl⟩ : ∃ (u : Fin 1) (i : Fin 768), y = ix2 u i := ⟨y 0, y 1, eq_ix2 y⟩
  exact shapeCast_a_1a_apply (α := EReal) _ _ u i

/-- The value bias as a one-row matrix: entry `(u, f)` is the bias at `f`. -/
theorem bv_row (c : Dev nD) :
    (V m c main_v9 : S1x768.Idx → EReal)
      = fun y => (m ((c.tc : Thread nD τ).loc main_arg6) : S768.Idx → EReal) (ix1 (y 1)) := by
  dsimp only [Gen.V]
  simp only [Gen.hostOps0, Gen.hostOps0_1, List.flatten_cons, List.flatten_nil, List.append_nil, List.cons_append,
    List.nil_append]
  after_results
  funext y
  obtain ⟨u, i, rfl⟩ : ∃ (u : Fin 1) (i : Fin 768), y = ix2 u i := ⟨y 0, y 1, eq_ix2 y⟩
  exact shapeCast_a_1a_apply (α := EReal) _ _ u i

/-! ## One index word -/

/-- An index in [-577, 577), wrapped, lies in [0, 576]. -/
theorem wrap_range (a : BitVec 32) (h1 : -577 ≤ a.toInt) (h2 : a.toInt < 577) :
    0 ≤ (Cert.Attn.wrap a).toInt ∧ (Cert.Attn.wrap a).toInt ≤ 576 := by
  unfold Cert.Attn.wrap
  by_cases hneg : a.toInt < 0
  · have hc : IntOp.cmpi .slt a 0#32 = 1#1 := IntOp.cmpi_slt.mpr (by simpa using hneg)
    rw [hc, select_one]
    have hadd : (IntOp.addi a 577#32).toInt = a.toInt + 577 := by
      show (a + 577#32).toInt = _
      rw [BitVec.toInt_add]
      have : (577#32 : BitVec 32).toInt = 577 := by decide
      rw [this]
      exact Int.bmod_eq_of_le_mul_two (by omega) (by omega)
    rw [hadd]; omega
  · have hc : IntOp.cmpi .slt a 0#32 = 0#1 := eq_zero_of_ne_one (fun h => hneg (by simpa using IntOp.cmpi_slt.mp h))
    rw [hc, select_zero]
    omega

/-! ## The precondition read back: every index lies in [-577, 577) -/

instance scalarIdx_subsingleton : Subsingleton Cert.Pre_finite_inputs.S_.Idx := ⟨fun a b => funext fun d => d.elim0⟩

/-- Under the precondition the `i`-th index, read as a signed number, lies in [-577, 577): the precondition's last two
    conjuncts are "every index is at least -577" and "every index is below 577". -/
theorem index_range (hpre : Cert.Pre_KernelIdeal m) (c : Dev nD) (i : Fin 289) :
    -577 ≤ ((m ((c.tc : Thread nD τ).loc main_arg7) : S289.Idx → BitVec 32) (ix1 i)).toInt
      ∧ ((m ((c.tc : Thread nD τ).loc main_arg7) : S289.Idx → BitVec 32) (ix1 i)).toInt < 577 := by
  have e := congrFun (hpre c) ix0
  dsimp only [Cert.Pre_finite_inputs.fn, Cert.Pre_finite_inputs.fn_part1, Cert.Pre_finite_inputs.fn_part2] at e
  change IntOp.andi (IntOp.andi _ _) _ = 1#1 at e
  obtain ⟨hXA, hB⟩ := IntOp.andi_eq_one.1 e
  obtain ⟨-, hA⟩ := IntOp.andi_eq_one.1 hXA
  have ha := Host.reduce_andi_all _ _ _ _ _ hA (ix1 i)
  have hb := Host.reduce_andi_all _ _ _ _ _ hB (ix1 i)
  change IntOp.cmpi .sge _ 4294966719#32 = 1#1 at ha
  change IntOp.cmpi .slt _ 577#32 = 1#1 at hb
  rw [IntOp.cmpi_sge] at ha
  rw [IntOp.cmpi_slt] at hb
  have h1 : (4294966719#32 : BitVec 32).toInt = -577 := by decide
  have h2 : (577#32 : BitVec 32).toInt = 577 := by decide
  rw [h1] at ha
  rw [h2] at hb
  exact ⟨ha, hb⟩

/-! ## The row gather as one term

The program takes the rows in four steps: every index is wrapped (577 added when it is negative) and laid as a column;
a row's index is tested against [0, 576]; the rows are gathered at the wrapped indices, each clamped into [0, 576]; and
where the test failed the gathered entry is replaced by one fixed word. -/

/-- The wrapped indices, as a column. -/
def wrapCol (idx : S289.Idx → BitVec 32) : S289x1.Idx → BitVec 32 :=
  broadcastInDim S289x1 ![0] bcast_S289_S289x1_0
    (select (cmpi .slt idx (broadcastInDim S289 ![] bcast_S_S289 (constantI S_ 32 0#32)))
      (addi idx (broadcastInDim S289 ![] bcast_S_S289 (constantI S_ 32 577#32))) idx)

/-- Row by row: does the column's entry lie in [0, 576]? -/
def inRange (col : S289x1.Idx → BitVec 32) : S289.Idx → BitVec 1 :=
  Host.reduce IntOp.andi
    (andi (cmpi .sge col (broadcastInDim S289x1 ![] bcast_S_S289x1 (constantI S_ 32 0#32)))
      (cmpi .sle col (broadcastInDim S289x1 ![0, 1] bcast_S1x1_S289x1_0_1
        (broadcastInDim S1x1 ![1] bcast_S1_S1x1_1 (constantI S1 32 576#32)))))
    (constantI S_ 1 1#1) reducesTo_S289x1_S289_d1 h_S_

/-- The rows of `x` gathered at the column's entries, masked by the range test. -/
def takenOf (x : S32x577x768.Idx → EReal) (col : S289x1.Idx → BitVec 32) : S32x289x768.Idx → EReal :=
  select (broadcastInDim S32x289x768 ![1] bcast_S289_S32x289x768_1 (inRange col))
    (Host.gather gather_S32x577x768_S289x1_S32x289x768_02_1_n_n_1_1_321768 x col)
    (broadcastInDim S32x289x768 ![] bcast_S_S32x289x768 (constant (F := Ideal) S_ .f32 0x7FC00000#32))

/-! ## The array of taken rows is that term

The operations before the kernel run in two lines; the first, the row gather, is cut after its eighth operation, the
one that writes the column of wrapped indices. -/

/-- After the first eight operations the column buffer holds the wrapped indices. -/
theorem head_col (c : Dev nD) :
    (after ((hostOps0 (F := Ideal)).take 8) (fun b => m (c, b)) (Proc.devRef .tc main_call0_v5) : S289x1.Idx → BitVec 32)
      = wrapCol (m ((c.tc : Thread nD τ).loc main_arg7)) := by
  simp only [Gen.hostOps0, List.take_succ_cons, List.take_zero]
  after_results
  rfl

/-- The first eight operations leave the hidden states as they were. -/
theorem head_x (c : Dev nD) :
    (after ((hostOps0 (F := Ideal)).take 8) (fun b => m (c, b)) (Proc.devRef .tc main_arg0) : S32x577x768.Idx → EReal)
      = m ((c.tc : Thread nD τ).loc main_arg0) := by
  simp only [Gen.hostOps0, List.take_succ_cons, List.take_zero]
  after_results

/-- The remaining operations of the gather, from any contents: the taken rows as a function of the hidden states'
    buffer and the column buffer. -/
theorem tail_taken (G : Valuation τ sig (Elt Ideal)) :
    (after ((hostOps0 (F := Ideal)).drop 8) G (Proc.devRef .tc main_v0) : S32x289x768.Idx → EReal)
      = takenOf (G (Proc.devRef .tc main_arg0)) (G (Proc.devRef .tc main_call0_v5)) := by
  simp only [Gen.hostOps0, List.drop_succ_cons, List.drop_zero]
  after_results
  rfl

/-- The second line of operations does not write the taken rows. -/
theorem line2_taken (G : Valuation τ sig (Elt Ideal)) :
    after (hostOps0_1 (F := Ideal)) G (Proc.devRef .tc main_v0) = G (Proc.devRef .tc main_v0) := by
  simp only [Gen.hostOps0_1]
  after_results

/-- The array of taken rows, as the kernel finds it, is the gather's term of the hidden states and the indices. -/
theorem V_taken (c : Dev nD) :
    (V m c main_v0 : S32x289x768.Idx → EReal)
      = takenOf (m ((c.tc : Thread nD τ).loc main_arg0)) (wrapCol (m ((c.tc : Thread nD τ).loc main_arg7))) := by
  have hl : List.flatten [hostOps0 (F := Ideal), hostOps0_1]
      = (hostOps0 (F := Ideal)).take 8 ++ ((hostOps0 (F := Ideal)).drop 8 ++ hostOps0_1) := by
    rw [← List.append_assoc, List.take_append_drop, List.flatten_cons, List.flatten_cons, List.flatten_nil, List.append_nil]
  show after (List.flatten [hostOps0, hostOps0_1]) (fun b => m (c, b)) (Proc.devRef .tc main_v0) = _
  rw [hl, Cert.Lib.after_append, Cert.Lib.after_append, line2_taken, tail_taken, head_col, head_x]

/-! ## The term read at an index -/

/-- A vector laid as a column reads, at row `i`, the vector at `i`. -/
theorem bcol_apply {α : Type} (W : S289.Idx → α) (i : Fin 289) (u : Fin 1) :
    broadcastInDim S289x1 ![0] bcast_S289_S289x1_0 W (ix2 i u) = W (ix1 i) := by
  simp only [broadcastInDim]
  congr 1
  funext a
  have ha : a = 0 := Subsingleton.elim _ _
  subst ha
  apply Fin.ext
  split
  · next h1 => change 289 = 1 at h1; omega
  · rfl

/-- A vector over the kept rows, spread over batches and features, reads at `(n, i, f)` the vector at `i`. -/
theorem bmask_apply {α : Type} (M : S289.Idx → α) (n : Fin 32) (i : Fin 289) (f : Fin 768) :
    broadcastInDim S32x289x768 ![1] bcast_S289_S32x289x768_1 M (ix3 n i f) = M (ix1 i) := by
  simp only [broadcastInDim]
  congr 1
  funext a
  have ha : a = 0 := Subsingleton.elim _ _
  subst ha
  apply Fin.ext
  split
  · next h1 => change 289 = 1 at h1; omega
  · rfl

/-- The column of wrapped indices at row `i`: the `i`-th index, wrapped. -/
theorem wrapCol_apply (idx : S289.Idx → BitVec 32) (i : Fin 289) (u : Fin 1) :
    wrapCol idx (ix2 i u) = Cert.Attn.wrap (idx (ix1 i)) := by
  unfold wrapCol
  rw [bcol_apply]
  rfl

/-- The gather at `(n, i, f)`: the hidden states at batch `n`, feature `f`, and the row the column's `i`-th entry
    names, read as a signed number and kept inside [0, 576]. -/
theorem gather_apply (x : S32x577x768.Idx → EReal) (col : S289x1.Idx → BitVec 32) (n : Fin 32) (i : Fin 289) (f : Fin 768) :
    Host.gather gather_S32x577x768_S289x1_S32x289x768_02_1_n_n_1_1_321768 x col (ix3 n i f) = x (ix3 n (Cert.Attn.rowAt (col (ix2 i (0 : Fin 1)))) f) := by
  -- a result coordinate read at an axis known to be a given one
  have key : ∀ (k k' : Fin 3), k = k' → ((ix3 n i f : S32x289x768.Idx) k).val = ((ix3 n i f : S32x289x768.Idx) k').val :=
    fun k k' hk => by subst hk; rfl
  unfold Host.gather
  congr 1
  funext a
  apply Fin.ext
  match a with
  | ⟨0, _⟩ =>
    -- axis 0 is an offset axis: the result's own batch coordinate
    show gather_S32x577x768_S289x1_S32x289x768_02_1_n_n_1_1_321768.start (ix3 n i f) col 0 + gather_S32x577x768_S289x1_S32x289x768_02_1_n_n_1_1_321768.batchCoord (ix3 n i f) 0 + gather_S32x577x768_S289x1_S32x289x768_02_1_n_n_1_1_321768.offCoord (ix3 n i f) 0 = n.val
    rw [GatherDims.batchCoord_eq_zero _ _ _ (show (0 : Fin 3) ∉ gather_S32x577x768_S289x1_S32x289x768_02_1_n_n_1_1_321768.operandBatchingDims from by decide)]
    unfold GatherDims.start GatherDims.offCoord
    rw [dif_neg (show (0 : Fin 3) ∉ gather_S32x577x768_S289x1_S32x289x768_02_1_n_n_1_1_321768.startIndexMap from by decide),
      dif_pos (show (0 : Fin 3) ∈ gather_S32x577x768_S289x1_S32x289x768_02_1_n_n_1_1_321768.sKept from by decide), Nat.add_zero, Nat.zero_add]
    exact key _ 0 (by decide)
  | ⟨1, _⟩ =>
    -- axis 1 is the collapsed axis the start index names: the clamped start
    show gather_S32x577x768_S289x1_S32x289x768_02_1_n_n_1_1_321768.start (ix3 n i f) col 1 + gather_S32x577x768_S289x1_S32x289x768_02_1_n_n_1_1_321768.batchCoord (ix3 n i f) 1 + gather_S32x577x768_S289x1_S32x289x768_02_1_n_n_1_1_321768.offCoord (ix3 n i f) 1
      = (Cert.Attn.rowAt (col (ix2 i (0 : Fin 1)))).val
    rw [GatherDims.batchCoord_eq_zero _ _ _ (show (1 : Fin 3) ∉ gather_S32x577x768_S289x1_S32x289x768_02_1_n_n_1_1_321768.operandBatchingDims from by decide),
      GatherDims.offCoord_eq_zero _ _ _ (show (1 : Fin 3) ∉ gather_S32x577x768_S289x1_S32x289x768_02_1_n_n_1_1_321768.sKept from by decide), Nat.add_zero]
    unfold GatherDims.start
    rw [dif_pos (show (1 : Fin 3) ∈ gather_S32x577x768_S289x1_S32x289x768_02_1_n_n_1_1_321768.startIndexMap from by decide)]
    have hsi : ∀ c : Fin gather_S32x577x768_S289x1_S32x289x768_02_1_n_n_1_1_321768.startIndexMap.length, gather_S32x577x768_S289x1_S32x289x768_02_1_n_n_1_1_321768.siIdx (ix3 n i f) c = ix2 i (0 : Fin 1) := by
      intro c
      funext b
      apply Fin.ext
      match b with
      | ⟨0, _⟩ =>
        show (gather_S32x577x768_S289x1_S32x289x768_02_1_n_n_1_1_321768.siIdx (ix3 n i f) c (0 : Fin 2)).val = i.val
        unfold GatherDims.siIdx
        rw [dif_neg (show ¬ ((0 : Fin 2).val = gather_S32x577x768_S289x1_S32x289x768_02_1_n_n_1_1_321768.indexVectorDim) from by decide)]
        unfold GatherDims.siCoord
        exact key _ 1 (by decide)
      | ⟨1, _⟩ =>
        show (gather_S32x577x768_S289x1_S32x289x768_02_1_n_n_1_1_321768.siIdx (ix3 n i f) c (1 : Fin 2)).val = 0
        unfold GatherDims.siIdx
        rw [dif_pos (show (1 : Fin 2).val = gather_S32x577x768_S289x1_S32x289x768_02_1_n_n_1_1_321768.indexVectorDim from by decide)]
        have hc := c.isLt
        have hl : gather_S32x577x768_S289x1_S32x289x768_02_1_n_n_1_1_321768.startIndexMap.length = 1 := by decide
        show c.val = 0
        omega
    rw [hsi]
    rfl
  | ⟨2, _⟩ =>
    -- axis 2 is an offset axis: the result's own feature coordinate
    show gather_S32x577x768_S289x1_S32x289x768_02_1_n_n_1_1_321768.start (ix3 n i f) col 2 + gather_S32x577x768_S289x1_S32x289x768_02_1_n_n_1_1_321768.batchCoord (ix3 n i f) 2 + gather_S32x577x768_S289x1_S32x289x768_02_1_n_n_1_1_321768.offCoord (ix3 n i f) 2 = f.val
    rw [GatherDims.batchCoord_eq_zero _ _ _ (show (2 : Fin 3) ∉ gather_S32x577x768_S289x1_S32x289x768_02_1_n_n_1_1_321768.operandBatchingDims from by decide)]
    unfold GatherDims.start GatherDims.offCoord
    rw [dif_neg (show (2 : Fin 3) ∉ gather_S32x577x768_S289x1_S32x289x768_02_1_n_n_1_1_321768.startIndexMap from by decide),
      dif_pos (show (2 : Fin 3) ∈ gather_S32x577x768_S289x1_S32x289x768_02_1_n_n_1_1_321768.sKept from by decide), Nat.add_zero, Nat.zero_add]
    exact key _ 2 (by decide)

/-! ## The range test passes where the column's entries lie in [0, 576] -/

/-- A left fold by `and` from 1 over ones is 1. -/
theorem foldl_andi_ones {ι : Type} (g : ι → BitVec 1) (l : List ι) (hg : ∀ n ∈ l, g n = 1#1) :
    l.foldl (fun r n => IntOp.andi r (g n)) 1#1 = 1#1 := by
  induction l with
  | nil => rfl
  | cons a l ih =>
    rw [List.foldl_cons, hg a List.mem_cons_self]
    exact ih fun n hn => hg n (List.mem_cons_of_mem _ hn)

/-- A reduction by `and` from 1 over an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun i _ => hx i

/-- Where every entry of the column, read as a signed number, lies in [0, 576], the range test is 1 at every row. -/
theorem inRange_one (col : S289x1.Idx → BitVec 32) (hcol : ∀ y, 0 ≤ (col y).toInt ∧ (col y).toInt ≤ 576)
    (j : S289.Idx) : inRange col j = 1#1 := by
  unfold inRange
  refine reduce_andi_ones _ _ _ _ _ rfl fun y => ?_
  show IntOp.andi (IntOp.cmpi .sge (col y) 0#32) (IntOp.cmpi .sle (col y) 576#32) = 1#1
  have h0 : (0#32 : BitVec 32).toInt = 0 := by decide
  have h576 : (576#32 : BitVec 32).toInt = 576 := by decide
  exact IntOp.andi_eq_one.2 ⟨IntOp.cmpi_sge.2 (by rw [h0]; exact (hcol y).1), IntOp.cmpi_sle.2 (by rw [h576]; exact (hcol y).2)⟩

/-! ## The taken rows -/

/-- Under the precondition the array of taken rows holds, at `(n, i, f)`, the hidden states at `(n, r i, f)`, `r i` the
    row the `i`-th index names. -/
theorem taken_rows (hpre : Cert.Pre_KernelIdeal m) (c : Dev nD) :
    (V m c main_v0 : S32x289x768.Idx → EReal)
      = fun y => (m ((c.tc : Thread nD τ).loc main_arg0) : S32x577x768.Idx → EReal)
          (ix3 (y 0) (Cert.Attn.row (m ((c.tc : Thread nD τ).loc main_arg7) : S289.Idx → BitVec 32) (y 1)) (y 2)) := by
  rw [V_taken]
  funext y
  obtain ⟨n, i, f, rfl⟩ : ∃ (n : Fin 32) (i : Fin 289) (f : Fin 768), y = ix3 n i f := ⟨y 0, y 1, y 2, eq_ix3 y⟩
  have hcol : ∀ z : S289x1.Idx, 0 ≤ (wrapCol (m ((c.tc : Thread nD τ).loc main_arg7)) z).toInt
      ∧ (wrapCol (m ((c.tc : Thread nD τ).loc main_arg7)) z).toInt ≤ 576 := fun z => by
    obtain ⟨p, u, rfl⟩ : ∃ (p : Fin 289) (u : Fin 1), z = ix2 p u := ⟨z 0, z 1, eq_ix2 z⟩
    rw [wrapCol_apply]
    exact wrap_range _ (index_range m hpre c p).1 (index_range m hpre c p).2
  unfold takenOf
  rw [select_apply, bmask_apply, inRange_one _ hcol, select_one, gather_apply, wrapCol_apply]
  rfl

end Cert.KernelInputs

end
-- ==== Proof.KernelArray.lean ====
/-
  From the blocks the kernel writes back to the whole result array.

  The call runs over 32 grid points, one per batch entry.  Point t stages batch t of the gathered rows and of the hidden
  states, and the whole of each transposed weight and bias row; it writes back batch t of the result.  An entry of a
  staged block is the entry of its array at the block's offset plus the coordinate inside the block, so the body's output
  block at point t, read at (u, i, 64·n + d), is the specification's entry at (t, i, 64·n + d): the gathered rows are the
  rows the index vector names, the transposed weights read the weights with their coordinates exchanged, and the bias rows
  read the biases.  The 32 blocks cover the result array, so the array ends holding the specification.
-/
import proofs.«411319_j90933047591130_3_alg».proof.Proof.Gen.KernelIdeal.Value
import proofs.«411319_j90933047591130_3_alg».proof.Proof.KernelBlock
import proofs.«411319_j90933047591130_3_alg».proof.Proof.KernelInputs
import Idealize.ShloMosaic.Lib.Pipeline.Value

noncomputable section

namespace Cert.KernelArray

open Cert.KernelIdeal Cert.KernelIdeal.Gen Cert.KernelBlock Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## A feature's head and coordinate -/

theorem headOf_col (n : Fin 12) (d : Fin 64) : Cert.Attn.headOf (Cert.Attn.col n d) = n :=
  Fin.ext (by show (64 * n.val + d.val) / 64 = n.val; omega)
theorem coordOf_col (n : Fin 12) (d : Fin 64) : Cert.Attn.coordOf (Cert.Attn.col n d) = d :=
  Fin.ext (by show (64 * n.val + d.val) % 64 = d.val; omega)

/-! ## Where each window's block sits -/

/-- The printed index maps, decided over the 32 points: the three batched windows move with the point along the batch
    axis; the weights and bias rows stay. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_8.index t (0 : Fin 3) = t.val ∧ win0_8.index t (1 : Fin 3) = 0 ∧ win0_8.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The batch entry a grid point works on. -/
def batch (t : Fin cfg0.N) : Fin 32 := ⟨t.val, by have := t.isLt; have h : cfg0.N = 32 := N_0; omega⟩

theorem emb0 (t : Fin cfg0.N) (u : Fin 1) (i : Fin 289) (e : Fin 768) :
    ((cfg0.win 0).blk t).view.emb (ix3 u i e) = ix3 (batch t) i e := by
  obtain ⟨⟨a0, a1, a2⟩, ⟨b0, b1, b2⟩, ⟨c0, c1, c2⟩, -⟩ := idx_facts t
  have hu : u.val = 0 := by omega
  funext a; apply Fin.ext
  match a with
  | ⟨0, _⟩ => show win0_0.index t (0 : Fin 3) * 1 + 1 * u.val = t.val; omega
  | ⟨1, _⟩ => show win0_0.index t (1 : Fin 3) * 289 + 1 * i.val = i.val; omega
  | ⟨2, _⟩ => show win0_0.index t (2 : Fin 3) * 768 + 1 * e.val = e.val; omega

theorem emb1 (t : Fin cfg0.N) (u : Fin 1) (i : Fin 577) (e : Fin 768) :
    ((cfg0.win 1).blk t).view.emb (ix3 u i e) = ix3 (batch t) i e := by
  obtain ⟨⟨a0, a1, a2⟩, ⟨b0, b1, b2⟩, ⟨c0, c1, c2⟩, -⟩ := idx_facts t
  have hu : u.val = 0 := by omega
  funext a; apply Fin.ext
  match a with
  | ⟨0, _⟩ => show win0_1.index t (0 : Fin 3) * 1 + 1 * u.val = t.val; omega
  | ⟨1, _⟩ => show win0_1.index t (1 : Fin 3) * 577 + 1 * i.val = i.val; omega
  | ⟨2, _⟩ => show win0_1.index t (2 : Fin 3) * 768 + 1 * e.val = e.val; omega

theorem emb8 (t : Fin cfg0.N) (u : Fin 1) (i : Fin 289) (e : Fin 768) :
    ((cfg0.win 8).blk t).view.emb (ix3 u i e) = ix3 (batch t) i e := by
  obtain ⟨⟨a0, a1, a2⟩, ⟨b0, b1, b2⟩, ⟨c0, c1, c2⟩, -⟩ := idx_facts t
  have hu : u.val = 0 := by omega
  funext a; apply Fin.ext
  match a with
  | ⟨0, _⟩ => show win0_8.index t (0 : Fin 3) * 1 + 1 * u.val = t.val; omega
  | ⟨1, _⟩ => show win0_8.index t (1 : Fin 3) * 289 + 1 * i.val = i.val; omega
  | ⟨2, _⟩ => show win0_8.index t (2 : Fin 3) * 768 + 1 * e.val = e.val; omega

theorem emb2 (t : Fin cfg0.N) (a : Fin 768) (b : Fin 768) :
    ((cfg0.win 2).blk t).view.emb (ix2 a b) = ix2 a b := by
  obtain ⟨-, -, -, h2, h3, h4, h5, h6, h7⟩ := idx_facts t
  funext x; apply Fin.ext
  match x with
  | ⟨0, _⟩ => show win0_2.index t (0 : Fin 2) * 768 + 1 * a.val = a.val; omega
  | ⟨1, _⟩ => show win0_2.index t (1 : Fin 2) * 768 + 1 * b.val = b.val; omega

theorem emb4 (t : Fin cfg0.N) (a : Fin 768) (b : Fin 768) :
    ((cfg0.win 4).blk t).view.emb (ix2 a b) = ix2 a b := by
  obtain ⟨-, -, -, h2, h3, h4, h5, h6, h7⟩ := idx_facts t
  funext x; apply Fin.ext
  match x with
  | ⟨0, _⟩ => show win0_4.index t (0 : Fin 2) * 768 + 1 * a.val = a.val; omega
  | ⟨1, _⟩ => show win0_4.index t (1 : Fin 2) * 768 + 1 * b.val = b.val; omega

theorem emb6 (t : Fin cfg0.N) (a : Fin 768) (b : Fin 768) :
    ((cfg0.win 6).blk t).view.emb (ix2 a b) = ix2 a b := by
  obtain ⟨-, -, -, h2, h3, h4, h5, h6, h7⟩ := idx_facts t
  funext x; apply Fin.ext
  match x with
  | ⟨0, _⟩ => show win0_6.index t (0 : Fin 2) * 768 + 1 * a.val = a.val; omega
  | ⟨1, _⟩ => show win0_6.index t (1 : Fin 2) * 768 + 1 * b.val = b.val; omega

theorem emb3 (t : Fin cfg0.N) (a : Fin 1) (b : Fin 768) :
    ((cfg0.win 3).blk t).view.emb (ix2 a b) = ix2 a b := by
  obtain ⟨-, -, -, h2, h3, h4, h5, h6, h7⟩ := idx_facts t
  funext x; apply Fin.ext
  match x with
  | ⟨0, _⟩ => show win0_3.index t (0 : Fin 2) * 1 + 1 * a.val = a.val; omega
  | ⟨1, _⟩ => show win0_3.index t (1 : Fin 2) * 768 + 1 * b.val = b.val; omega

theorem emb5 (t : Fin cfg0.N) (a : Fin 1) (b : Fin 768) :
    ((cfg0.win 5).blk t).view.emb (ix2 a b) = ix2 a b := by
  obtain ⟨-, -, -, h2, h3, h4, h5, h6, h7⟩ := idx_facts t
  funext x; apply Fin.ext
  match x with
  | ⟨0, _⟩ => show win0_5.index t (0 : Fin 2) * 1 + 1 * a.val = a.val; omega
  | ⟨1, _⟩ => show win0_5.index t (1 : Fin 2) * 768 + 1 * b.val = b.val; omega

theorem emb7 (t : Fin cfg0.N) (a : Fin 1) (b : Fin 768) :
    ((cfg0.win 7).blk t).view.emb (ix2 a b) = ix2 a b := by
  obtain ⟨-, -, -, h2, h3, h4, h5, h6, h7⟩ := idx_facts t
  funext x; apply Fin.ext
  match x with
  | ⟨0, _⟩ => show win0_7.index t (0 : Fin 2) * 1 + 1 * a.val = a.val; omega
  | ⟨1, _⟩ => show win0_7.index t (1 : Fin 2) * 768 + 1 * b.val = b.val; omega

/-! ## The staged blocks, read in the argument arrays -/

section Reads
variable (c : Dev nD) (t : Fin cfg0.N)

/-- The gathered rows' block: row `i` of batch `t` is the hidden-states row the `i`-th index names — GIVEN that the
    gathered array holds those rows (`htake`, which needs the indices in range). -/
theorem read0 (htake : (V m c main_v0 : S32x289x768.Idx → EReal)
      = fun y => ((m ((c.tc : Thread nD τ).loc main_arg0)) : S32x577x768.Idx → EReal) (ix3 (y 0) (Cert.Attn.row (m ((c.tc : Thread nD τ).loc main_arg7)) (y 1)) (y 2)))
    (u : Fin 1) (i : Fin 289) (e : Fin 768) :
    iblk m c 0 t (ix3 u i e) = ((m ((c.tc : Thread nD τ).loc main_arg0)) : S32x577x768.Idx → EReal) (ix3 (batch t) (Cert.Attn.row (m ((c.tc : Thread nD τ).loc main_arg7)) i) e) := by
  show (V m c main_v0 : S32x289x768.Idx → EReal) (((cfg0.win 0).blk t).view.emb (ix3 u i e)) = _
  rw [emb0, htake]
  rfl

theorem read1 (u : Fin 1) (j : Fin 577) (e : Fin 768) :
    iblk m c 1 t (ix3 u j e) = ((m ((c.tc : Thread nD τ).loc main_arg0)) : S32x577x768.Idx → EReal) (ix3 (batch t) j e) := by
  show (V m c main_arg0 : S32x577x768.Idx → EReal) (((cfg0.win 1).blk t).view.emb (ix3 u j e)) = _
  rw [emb1, V_main_arg0]

theorem read2 (e f : Fin 768) :
    iblk m c 2 t (ix2 e f) = ((m ((c.tc : Thread nD τ).loc main_arg1)) : S768x768.Idx → EReal) (ix2 f e) := by
  show (V m c main_v2 : S768x768.Idx → EReal) (((cfg0.win 2).blk t).view.emb (ix2 e f)) = _
  rw [emb2, Cert.KernelInputs.wq_T m c]
  rfl

theorem read4 (e f : Fin 768) :
    iblk m c 4 t (ix2 e f) = ((m ((c.tc : Thread nD τ).loc main_arg3)) : S768x768.Idx → EReal) (ix2 f e) := by
  show (V m c main_v4 : S768x768.Idx → EReal) (((cfg0.win 4).blk t).view.emb (ix2 e f)) = _
  rw [emb4, Cert.KernelInputs.wk_T m c]
  rfl

theorem read6 (e f : Fin 768) :
    iblk m c 6 t (ix2 e f) = ((m ((c.tc : Thread nD τ).loc main_arg5)) : S768x768.Idx → EReal) (ix2 f e) := by
  show (V m c main_v6 : S768x768.Idx → EReal) (((cfg0.win 6).blk t).view.emb (ix2 e f)) = _
  rw [emb6, Cert.KernelInputs.wv_T m c]
  rfl

theorem read3 (u : Fin 1) (f : Fin 768) :
    iblk m c 3 t (ix2 u f) = ((m ((c.tc : Thread nD τ).loc main_arg2)) : S768.Idx → EReal) (ix1 f) := by
  show (V m c main_v7 : S1x768.Idx → EReal) (((cfg0.win 3).blk t).view.emb (ix2 u f)) = _
  rw [emb3, Cert.KernelInputs.bq_row m c]
  rfl

theorem read5 (u : Fin 1) (f : Fin 768) :
    iblk m c 5 t (ix2 u f) = ((m ((c.tc : Thread nD τ).loc main_arg4)) : S768.Idx → EReal) (ix1 f) := by
  show (V m c main_v8 : S1x768.Idx → EReal) (((cfg0.win 5).blk t).view.emb (ix2 u f)) = _
  rw [emb5, Cert.KernelInputs.bk_row m c]
  rfl

theorem read7 (u : Fin 1) (f : Fin 768) :
    iblk m c 7 t (ix2 u f) = ((m ((c.tc : Thread nD τ).loc main_arg6)) : S768.Idx → EReal) (ix1 f) := by
  show (V m c main_v9 : S1x768.Idx → EReal) (((cfg0.win 7).blk t).view.emb (ix2 u f)) = _
  rw [emb7, Cert.KernelInputs.bv_row m c]
  rfl

end Reads

/-! ## What a point writes back, and the final array -/

/-- The result the specification gives for this memory's arguments. -/
abbrev spec (c : Dev nD) : S32x289x768.Idx → EReal :=
  Cert.Attn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- WHAT POINT `t` WRITES BACK is block `t` of the specification. -/
theorem flushed8_eq (c : Dev nD)
    (htake : (V m c main_v0 : S32x289x768.Idx → EReal)
      = fun y => ((m ((c.tc : Thread nD τ).loc main_arg0)) : S32x577x768.Idx → EReal) (ix3 (y 0) (Cert.Attn.row (m ((c.tc : Thread nD τ).loc main_arg7)) (y 1)) (y 2)))
    (t : Fin cfg0.N) :
    (dats m 0 c).flushed 8 t = ((cfg0.win 8).blk t).view.read (Elt Ideal) (spec m c) := by
  rw [Cert.KernelIdeal.Value.flushed8]
  funext j
  obtain ⟨u, i, f, rfl⟩ : ∃ (u : Fin 1) (i : Fin 289) (f : Fin 768), j = ix3 u i f := ⟨j 0, j 1, j 2, eq_ix3 j⟩
  obtain ⟨n, d, rfl⟩ : ∃ (n : Fin 12) (d : Fin 64), f = Cert.Attn.col n d :=
    ⟨Cert.Attn.headOf f, Cert.Attn.coordOf f, (Cert.Attn.col_headOf_coordOf f).symm⟩
  show out0_8 (F := Ideal) (iblk m c 0 t) (iblk m c 1 t) (iblk m c 2 t) (iblk m c 3 t) (iblk m c 4 t) (iblk m c 5 t)
      (iblk m c 6 t) (iblk m c 7 t) (ix3 u i (Cert.Attn.col n d))
    = spec m c (((cfg0.win 8).blk t).view.emb (ix3 u i (Cert.Attn.col n d)))
  rw [emb8]
  refine (block_apply (iblk m c 0 t) (iblk m c 1 t) (iblk m c 2 t) (iblk m c 3 t) (iblk m c 4 t) (iblk m c 5 t)
      (iblk m c 6 t) (iblk m c 7 t) u i n d).trans ?_
  show _ = Cert.Attn.out _ _ _ _ _ _ _ _ (batch t) i (Cert.Attn.headOf (Cert.Attn.col n d)) (Cert.Attn.coordOf (Cert.Attn.col n d))
  rw [headOf_col, coordOf_col]
  unfold Cert.Attn.out lin Cert.Attn.proj
  simp only [read0 m c t htake, read1 m c t, read2 m c t, read3 m c t, read4 m c t, read5 m c t, read6 m c t, read7 m c t]

/-- THE RESULT ARRAY after the run is the specification: the 32 blocks cover it, batch `n` by point `n`. -/
theorem final8 (c : Dev nD)
    (htake : (V m c main_v0 : S32x289x768.Idx → EReal)
      = fun y => ((m ((c.tc : Thread nD τ).loc main_arg0)) : S32x577x768.Idx → EReal) (ix3 (y 0) (Cert.Attn.row (m ((c.tc : Thread nD τ).loc main_arg7)) (y 1)) (y 2))) :
    (dats m 0 c).arrAt 8 cfg0.N = spec m c :=
  (dats m 0 c).arrAt_eq_of_cover 8 (spec m c) (fun t _ => flushed8_eq m c htake t) fun i => by
    have hN : cfg0.N = 32 := N_0
    have h0 : (i 0 : Nat) < 32 := (i 0).isLt
    have h1 : (i 1 : Nat) < 289 := (i 1).isLt
    have h2 : (i 2 : Nat) < 768 := (i 2).isLt
    obtain ⟨t, ht⟩ : ∃ t : Fin cfg0.N, t.val = (i 0 : Nat) := ⟨⟨(i 0 : Nat), by rw [hN]; exact h0⟩, rfl⟩
    obtain ⟨-, -, ⟨c0, c1, c2⟩, -⟩ := idx_facts t
    refine ⟨t, flush0_8 t, ?_⟩
    show i ∈ ((View.whole main_v10).slice (win0_8.rect t)).set
    rw [View.set_slice_whole, Rect.mem_set_unit]
    intro a
    match a with
    | ⟨0, _⟩ => show win0_8.index t (0 : Fin 3) * 1 ≤ (i 0 : Nat) ∧ (i 0 : Nat) < win0_8.index t (0 : Fin 3) * 1 + 1; omega
    | ⟨1, _⟩ => show win0_8.index t (1 : Fin 3) * 289 ≤ (i 1 : Nat) ∧ (i 1 : Nat) < win0_8.index t (1 : Fin 3) * 289 + 289; omega
    | ⟨2, _⟩ => show win0_8.index t (2 : Fin 3) * 768 ≤ (i 2 : Nat) ∧ (i 2 : Nat) < win0_8.index t (2 : Fin 3) * 768 + 768; omega

/-- THE RUN, READ: the result array ends at the specification of the arguments, the arguments unchanged. -/
theorem run (htake : ∀ c : Dev nD, (V m c main_v0 : S32x289x768.Idx → EReal)
      = fun y => ((m ((c.tc : Thread nD τ).loc main_arg0)) : S32x577x768.Idx → EReal) (ix3 (y 0) (Cert.Attn.row (m ((c.tc : Thread nD τ).loc main_arg7)) (y 1)) (y 2))) :
    θ_run defs (onTc (τ := τ) (main (F := Ideal))) ⟨m, fun _ => 0, ρ⟩ fun r => ∀ c : Dev nD,
      r.2.mem ((c : Thread nD τ).loc main_v10) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c (htake c)), (h c).2⟩)
    (Cert.KernelIdeal.Value.run_blocks m ρ)

end Cert.KernelArray

end
-- ==== Proof.RefAttention.lean ====
/-
  The reference program's result, read entry by entry, is the attention layer of Attention.lean.

  The program is a chain of host operations, each read at an index by the generated module.  Followed from the result
  back to the arguments, the chain says:
  * a projection `x Wᵀ + b`, split into 12 heads of 64 and transposed, holds at (n, h, s, d) the token's projection at
    feature 64·h + d; the key and the value projections are the same chain on other weights;
  * the gather along the token axis reads, for kept row i, the row whose number is the i-th index word with 577 added
    when it is negative, taken as a signed number and kept inside [0, 576];
  * the scores are the query row against every key, times the scale word;
  * the maximum of a row is the fold of `max` from the floor word over the row's 577 scores; the program takes the
    maximum with the floor word once more, which changes nothing because a fold of `max` is at least its start;
  * the exponentials of the shifted scores are divided by their sum, which starts from the zero word;
  * the weights are summed against a value column, and the last transpose and reshape put head f / 64, coordinate
    f % 64 at feature f.
  Every product keeps its order on the two sides, so no law of the extended reals beyond `0 + a = a` is used.
-/
import proofs.«411319_j90933047591130_3_alg».proof.Proof.Gen.ReferenceIdeal.Read
import proofs.«411319_j90933047591130_3_alg».proof.Proof.Attention
import Idealize.ShloMosaic.PureOps.Reduce
import Idealize.ShloMosaic.PureOps.Ideal.Laws
import Idealize.ShloMosaic.Lib.ValueIdx

noncomputable section

namespace Cert.RefAttn

open Cert.ReferenceIdeal Cert.ReferenceIdeal.Gen Cert.ReferenceIdeal.Read Idealize.ShloMosaic Idealize.ShloMosaic.ValueIdx Cert.Attn

/-! ## The three projections, transposed to heads -/

/-- The key and the value projections run the same host chain as the query projection, on other arguments. -/
theorem v11_eq (x0 : (⟨S32x577x768, .f32⟩ : BufTy).Contents (Elt Ideal)) (x3 : (⟨S768x768, .f32⟩ : BufTy).Contents (Elt Ideal)) (x4 : (⟨S768, .f32⟩ : BufTy).Contents (Elt Ideal)) :
    val_main_v11 (F := Ideal) x0 x3 x4 = val_main_v5 (F := Ideal) x0 x3 x4 := rfl

theorem v17_eq (x0 : (⟨S32x577x768, .f32⟩ : BufTy).Contents (Elt Ideal)) (x5 : (⟨S768x768, .f32⟩ : BufTy).Contents (Elt Ideal)) (x6 : (⟨S768, .f32⟩ : BufTy).Contents (Elt Ideal)) :
    val_main_v17 (F := Ideal) x0 x5 x6 = val_main_v5 (F := Ideal) x0 x5 x6 := rfl

/-- The transpose to heads reads (n, s, h, d) at (n, h, s, d). -/
theorem idx5 (n : Fin 32) (h : Fin 12) (s : Fin 577) (d : Fin 64) :
    idx_main_v5 (ix4 n h s d) = ix4 n s h d :=
  funext fun a => Fin.ext (by match a with | ⟨0, _⟩ => rfl | ⟨1, _⟩ => rfl | ⟨2, _⟩ => rfl | ⟨3, _⟩ => rfl)

/-- The split of the 768 features into 12 heads of 64 reads feature 64·h + d at (h, d). -/
theorem idx4 (n : Fin 32) (s : Fin 577) (h : Fin 12) (d : Fin 64) :
    idx_main_v4 (ix4 n s h d) = ix3 n s (col h d) :=
  funext fun a => Fin.ext (by
    have hn := n.isLt; have hs := s.isLt; have hh := h.isLt; have hd := d.isLt
    match a with
    | ⟨0, _⟩ => show (((n.val * 577 + s.val) * 12 + h.val) * 64 + d.val) / 443136 = n.val; omega
    | ⟨1, _⟩ => show (((n.val * 577 + s.val) * 12 + h.val) * 64 + d.val) / 768 % 577 = s.val; omega
    | ⟨2, _⟩ => show (((n.val * 577 + s.val) * 12 + h.val) * 64 + d.val) % 768 = 64 * h.val + d.val; omega)

theorem lidx0 (n : Fin 32) (s : Fin 577) (f k : Fin 768) : lidx_main_v0 (ix3 n s f) k = ix3 n s k :=
  funext fun a => Fin.ext (by match a with | ⟨0, _⟩ => rfl | ⟨1, _⟩ => rfl | ⟨2, _⟩ => rfl)

theorem ridx0 (n : Fin 32) (s : Fin 577) (f k : Fin 768) : ridx_main_v0 (ix3 n s f) k = ix2 f k :=
  funext fun a => Fin.ext (by match a with | ⟨0, _⟩ => rfl | ⟨1, _⟩ => rfl)

theorem idx12 (n : Fin 32) (s : Fin 577) (f : Fin 768) : idx_main_v1 (idx_main_v2 (ix3 n s f)) = ix1 f :=
  funext fun a => Fin.ext (by match a with | ⟨0, _⟩ => rfl)

/-- A projection, transposed to heads, at (n, h, s, d) is the token's projection at feature 64·h + d. -/
theorem proj_eq (x : (⟨S32x577x768, .f32⟩ : BufTy).Contents (Elt Ideal)) (W : (⟨S768x768, .f32⟩ : BufTy).Contents (Elt Ideal)) (b : (⟨S768, .f32⟩ : BufTy).Contents (Elt Ideal))
    (n : Fin 32) (h : Fin 12) (s : Fin 577) (d : Fin 64) :
    val_main_v5 (F := Ideal) x W b (ix4 n h s d) = proj x W b n s (col h d) := by
  rw [val_main_v5_apply, idx5, val_main_v4_apply, idx4, val_main_v3_apply, val_main_v0_apply, val_main_v2_apply,
    val_main_v1_apply, idx12]
  simp only [lidx0, ridx0, Ideal.addf_def]
  rfl

/-! ## The kept rows: the index words wrapped, and the gather along the token axis -/

/-- The start words the gather reads are the index words with 577 added to the negative ones. -/
theorem v22_eq (x7 : (⟨S289, .i32⟩ : BufTy).Contents (Elt Ideal)) (i : Fin 289) : val_main_v22 (F := Ideal) x7 (ix1 i) = wrap (x7 (ix1 i)) := by
  rw [val_main_v22_apply, val_main_v19_apply, val_main_v21_apply, val_main_v18_apply, val_main_v20_apply]
  rfl

theorem idx23 (i : Fin 289) (z : Fin 1) : idx_main_v23 (ix2 i z) = ix1 i :=
  funext fun a => Fin.ext (by match a with | ⟨0, _⟩ => rfl)

/-- The gather's dimension numbers: the token axis is collapsed and indexed, the other three axes are offsets. -/
abbrev gdims := gather_S32x12x577x64_S289x1_S32x12x289x64_013_2_n_n_2_1_3212164

/-- On an offset axis the gather reads the result's own coordinate. -/
theorem gather_ax0 (idx : IVec S289x1 32) (n : Fin 32) (h : Fin 12) (i : Fin 289) (d : Fin 64) :
    (gdims.operandIdx (ix4 n h i d) idx 0).val = n.val := by
  show gdims.start (ix4 n h i d) idx 0 + gdims.batchCoord (ix4 n h i d) 0 + gdims.offCoord (ix4 n h i d) 0 = _
  rw [gdims.batchCoord_eq_zero _ _ (by decide)]
  unfold GatherDims.start GatherDims.offCoord
  rw [dif_neg (show ¬(0 : Fin S32x12x577x64.rank) ∈ gdims.startIndexMap by decide),
    dif_pos (show (0 : Fin S32x12x577x64.rank) ∈ gdims.sKept by decide), Nat.zero_add]
  rfl

theorem gather_ax1 (idx : IVec S289x1 32) (n : Fin 32) (h : Fin 12) (i : Fin 289) (d : Fin 64) :
    (gdims.operandIdx (ix4 n h i d) idx 1).val = h.val := by
  show gdims.start (ix4 n h i d) idx 1 + gdims.batchCoord (ix4 n h i d) 1 + gdims.offCoord (ix4 n h i d) 1 = _
  rw [gdims.batchCoord_eq_zero _ _ (by decide)]
  unfold GatherDims.start GatherDims.offCoord
  rw [dif_neg (show ¬(1 : Fin S32x12x577x64.rank) ∈ gdims.startIndexMap by decide),
    dif_pos (show (1 : Fin S32x12x577x64.rank) ∈ gdims.sKept by decide), Nat.zero_add]
  rfl

theorem gather_ax3 (idx : IVec S289x1 32) (n : Fin 32) (h : Fin 12) (i : Fin 289) (d : Fin 64) :
    (gdims.operandIdx (ix4 n h i d) idx 3).val = d.val := by
  show gdims.start (ix4 n h i d) idx 3 + gdims.batchCoord (ix4 n h i d) 3 + gdims.offCoord (ix4 n h i d) 3 = _
  rw [gdims.batchCoord_eq_zero _ _ (by decide)]
  unfold GatherDims.start GatherDims.offCoord
  rw [dif_neg (show ¬(3 : Fin S32x12x577x64.rank) ∈ gdims.startIndexMap by decide),
    dif_pos (show (3 : Fin S32x12x577x64.rank) ∈ gdims.sKept by decide), Nat.zero_add]
  rfl

/-- On the token axis it reads the start word of the kept row, as a signed number kept inside [0, 576]. -/
theorem gather_ax2 (idx : IVec S289x1 32) (n : Fin 32) (h : Fin 12) (i : Fin 289) (d : Fin 64) :
    (gdims.operandIdx (ix4 n h i d) idx 2).val = min (idx (ix2 i 0)).toInt.toNat 576 := by
  show gdims.start (ix4 n h i d) idx 2 + gdims.batchCoord (ix4 n h i d) 2 + gdims.offCoord (ix4 n h i d) 2 = _
  rw [gdims.batchCoord_eq_zero _ _ (by decide), gdims.offCoord_eq_zero _ _ (by decide)]
  unfold GatherDims.start
  rw [dif_pos (show (2 : Fin S32x12x577x64.rank) ∈ gdims.startIndexMap by decide)]
  have hsi : gdims.siIdx (ix4 n h i d) ⟨List.idxOf (2 : Fin S32x12x577x64.rank) gdims.startIndexMap,
      List.idxOf_lt_length_iff.2 (by decide)⟩ = ix2 i 0 := by
    funext b; refine Fin.ext ?_
    match b with
    | ⟨0, _⟩ => rfl
    | ⟨1, _⟩ => rfl
  rw [hsi]
  rfl

/-- The gathered queries at (n, h, i, d) are the query projection at the row the i-th index names. -/
theorem gather_eq (x0 : (⟨S32x577x768, .f32⟩ : BufTy).Contents (Elt Ideal)) (x1 : (⟨S768x768, .f32⟩ : BufTy).Contents (Elt Ideal)) (x2 : (⟨S768, .f32⟩ : BufTy).Contents (Elt Ideal)) (x7 : (⟨S289, .i32⟩ : BufTy).Contents (Elt Ideal))
    (n : Fin 32) (h : Fin 12) (i : Fin 289) (d : Fin 64) :
    val_main_v24 (F := Ideal) x0 x1 x2 x7 (ix4 n h i d) = val_main_v5 (F := Ideal) x0 x1 x2 (ix4 n h (row x7 i) d) := by
  unfold val_main_v24
  generalize val_main_v5 (F := Ideal) x0 x1 x2 = y
  unfold Host.gather
  refine congrArg y (funext fun a => Fin.ext ?_)
  match a with
  | ⟨0, _⟩ => exact gather_ax0 _ n h i d
  | ⟨1, _⟩ => exact gather_ax1 _ n h i d
  | ⟨2, _⟩ =>
    refine (gather_ax2 _ n h i d).trans ?_
    rw [val_main_v23_apply, idx23, v22_eq]
    rfl
  | ⟨3, _⟩ => exact gather_ax3 _ n h i d

/-! ## The scores -/

theorem lidx25 (n : Fin 32) (h : Fin 12) (i : Fin 289) (j : Fin 577) (k : Fin 64) :
    lidx_main_v25 (ix4 n h i j) k = ix4 n h i k :=
  funext fun a => Fin.ext (by match a with | ⟨0, _⟩ => rfl | ⟨1, _⟩ => rfl | ⟨2, _⟩ => rfl | ⟨3, _⟩ => rfl)

theorem ridx25 (n : Fin 32) (h : Fin 12) (i : Fin 289) (j : Fin 577) (k : Fin 64) :
    ridx_main_v25 (ix4 n h i j) k = ix4 n h j k :=
  funext fun a => Fin.ext (by match a with | ⟨0, _⟩ => rfl | ⟨1, _⟩ => rfl | ⟨2, _⟩ => rfl | ⟨3, _⟩ => rfl)

/-- The scaled scores of batch n, head h and kept row i against the 577 keys. -/
abbrev srow (x0 : (⟨S32x577x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S289, .i32⟩ : BufTy).Contents (Elt Ideal))
    (n : Fin 32) (h : Fin 12) (i : Fin 289) : Fin 577 → EReal :=
  score (fun d' => proj x0 x1 x2 n (row x7 i) (col h d')) (fun j d' => proj x0 x3 x4 n j (col h d'))

theorem score_eq (x0 : (⟨S32x577x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S289, .i32⟩ : BufTy).Contents (Elt Ideal))
    (n : Fin 32) (h : Fin 12) (i : Fin 289) (j : Fin 577) :
    val_main_v27 (F := Ideal) x0 x1 x2 x3 x4 x7 (ix4 n h i j) = srow x0 x1 x2 x3 x4 x7 n h i j := by
  rw [val_main_v27_apply, val_main_v25_apply, val_main_v26_apply, val_main_cst_apply, v11_eq]
  simp only [lidx25, ridx25, gather_eq, proj_eq, Ideal.mulf_def, Ideal.ofBits_def]
  rfl

/-! ## The largest score of a row -/

/-- At these shapes the last axis is the one reduced; the witness names a row's index with the key coordinate put back. -/
theorem red3 : S32x12x289x577.Reduces [3] S32x12x289 := by decide

theorem lift3 (n : Fin 32) (h : Fin 12) (i : Fin 289) (k : Fin 577) : red3.lift (ix3 n h i) k = ix4 n h i k :=
  funext fun a => Fin.ext (by match a with | ⟨0, _⟩ => rfl | ⟨1, _⟩ => rfl | ⟨2, _⟩ => rfl | ⟨3, _⟩ => rfl)

/-- The maximum the program subtracts: the fold of `max` over the row from the floor word, and taking the
    maximum with the floor once more changes nothing, since the fold is at least its starting value. -/
theorem top_eq (x0 : (⟨S32x577x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S289, .i32⟩ : BufTy).Contents (Elt Ideal))
    (n : Fin 32) (h : Fin 12) (i : Fin 289) :
    val_main_v30 (F := Ideal) x0 x1 x2 x3 x4 x7 (ix3 n h i) = top (srow x0 x1 x2 x3 x4 x7 n h i) := by
  rw [val_main_v30_apply, val_main_v29_apply, val_main_cst_2_apply]
  unfold val_main_v28
  rw [Host.reduce_eq_fold_single FloatOps.maximumf _ _ reducesTo_S32x12x289x577_S32x12x289_d3 red3 h_S_]
  have hf : (val_main_v27 (F := Ideal) x0 x1 x2 x3 x4 x7) ∘ red3.lift (ix3 n h i) = srow x0 x1 x2 x3 x4 x7 n h i :=
    funext fun (k : Fin 577) => by
      show val_main_v27 (F := Ideal) x0 x1 x2 x3 x4 x7 (red3.lift (ix3 n h i) k) = _
      rw [lift3, score_eq]
  rw [hf]
  exact max_eq_right ((Finset.le_fold_max _).mpr (Or.inl le_rfl))

/-! ## The weights: exponentials of the shifted scores over their sum -/

theorem idx3132 (n : Fin 32) (h : Fin 12) (i : Fin 289) (j : Fin 577) :
    idx_main_v31 (idx_main_v32 (ix4 n h i j)) = ix3 n h i :=
  funext fun a => Fin.ext (by match a with | ⟨0, _⟩ => rfl | ⟨1, _⟩ => rfl | ⟨2, _⟩ => rfl)

theorem idx3637 (n : Fin 32) (h : Fin 12) (i : Fin 289) (j : Fin 577) :
    idx_main_v36 (idx_main_v37 (ix4 n h i j)) = ix3 n h i :=
  funext fun a => Fin.ext (by match a with | ⟨0, _⟩ => rfl | ⟨1, _⟩ => rfl | ⟨2, _⟩ => rfl)

theorem idx35 (n : Fin 32) (h : Fin 12) (i : Fin 289) (k : Fin 577) :
    idx_main_v35 (ix3 n h i) k = ix4 n h i k :=
  funext fun a => Fin.ext (by match a with | ⟨0, _⟩ => rfl | ⟨1, _⟩ => rfl | ⟨2, _⟩ => rfl | ⟨3, _⟩ => rfl)

/-- The exponential of a score less the row's maximum. -/
theorem exp_eq (x0 : (⟨S32x577x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S289, .i32⟩ : BufTy).Contents (Elt Ideal))
    (n : Fin 32) (h : Fin 12) (i : Fin 289) (j : Fin 577) :
    val_main_v34 (F := Ideal) x0 x1 x2 x3 x4 x7 (ix4 n h i j)
      = Ideal.exp (srow x0 x1 x2 x3 x4 x7 n h i j - top (srow x0 x1 x2 x3 x4 x7 n h i)) := by
  rw [val_main_v34_apply, val_main_v33_apply, val_main_v32_apply, val_main_v31_apply, idx3132, score_eq, top_eq]
  rfl

/-- The quotient by the row's sum (the sum starts from the zero word) is the softmax weight. -/
theorem weight_eq (x0 : (⟨S32x577x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S289, .i32⟩ : BufTy).Contents (Elt Ideal))
    (n : Fin 32) (h : Fin 12) (i : Fin 289) (j : Fin 577) :
    val_main_v38 (F := Ideal) x0 x1 x2 x3 x4 x7 (ix4 n h i j) = weight (srow x0 x1 x2 x3 x4 x7 n h i) j := by
  rw [val_main_v38_apply, val_main_v37_apply, val_main_v36_apply, idx3637, val_main_v35_apply, val_main_cst_3_apply,
    exp_eq]
  simp only [idx35, exp_eq, Ideal.hostDivf_def, Ideal.ofBits_def, Ideal.ofBits_zero_f32, zero_add]
  rfl

/-! ## The weighted sum of the values, and the heads put back side by side -/

theorem lidx39 (n : Fin 32) (h : Fin 12) (i : Fin 289) (d : Fin 64) (k : Fin 577) :
    lidx_main_v39 (ix4 n h i d) k = ix4 n h i k :=
  funext fun a => Fin.ext (by match a with | ⟨0, _⟩ => rfl | ⟨1, _⟩ => rfl | ⟨2, _⟩ => rfl | ⟨3, _⟩ => rfl)

theorem ridx39 (n : Fin 32) (h : Fin 12) (i : Fin 289) (d : Fin 64) (k : Fin 577) :
    ridx_main_v39 (ix4 n h i d) k = ix4 n h k d :=
  funext fun a => Fin.ext (by match a with | ⟨0, _⟩ => rfl | ⟨1, _⟩ => rfl | ⟨2, _⟩ => rfl | ⟨3, _⟩ => rfl)

/-- One head's output entry. -/
theorem entry_eq (x0 : (⟨S32x577x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S289, .i32⟩ : BufTy).Contents (Elt Ideal))
    (n : Fin 32) (h : Fin 12) (i : Fin 289) (d : Fin 64) :
    val_main_v39 (F := Ideal) x0 x1 x2 x3 x4 x5 x6 x7 (ix4 n h i d) = out x0 x1 x2 x3 x4 x5 x6 (row x7) n i h d := by
  rw [val_main_v39_apply, v17_eq]
  simp only [lidx39, ridx39, weight_eq, proj_eq]
  rfl

/-- The last transpose and reshape read feature f of kept row i at head f / 64, coordinate f % 64. -/
theorem idx4041 (n : Fin 32) (i : Fin 289) (f : Fin 768) :
    idx_main_v40 (idx_main_v41 (ix3 n i f)) = ix4 n (headOf f) i (coordOf f) :=
  funext fun a => Fin.ext (by
    have hn := n.isLt; have hi := i.isLt; have hf := f.isLt
    match a with
    | ⟨0, _⟩ => show ((n.val * 289 + i.val) * 768 + f.val) / 221952 = n.val; omega
    | ⟨1, _⟩ => show ((n.val * 289 + i.val) * 768 + f.val) / 64 % 12 = f.val / 64; omega
    | ⟨2, _⟩ => show ((n.val * 289 + i.val) * 768 + f.val) / 768 % 289 = i.val; omega
    | ⟨3, _⟩ => show ((n.val * 289 + i.val) * 768 + f.val) % 64 = f.val % 64; omega)

/-- The reference program's result is the attention layer's specification. -/
theorem result_eq (x0 : (⟨S32x577x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S289, .i32⟩ : BufTy).Contents (Elt Ideal)) :
    Cert.ReferenceIdeal.Read.val_main_v41 (F := Ideal) x0 x1 x2 x3 x4 x5 x6 x7 = Cert.Attn.result x0 x1 x2 x3 x4 x5 x6 x7 := by
  funext y
  obtain ⟨n, i, f, rfl⟩ : ∃ (n : Fin 32) (i : Fin 289) (f : Fin 768), y = ix3 n i f := ⟨y 0, y 1, y 2, eq_ix3 y⟩
  rw [val_main_v41_apply, val_main_v40_apply, idx4041, entry_eq]
  rfl

end Cert.RefAttn

end
-- ==== Proof.lean ====
/-
  The kernel and the reference compute the same multi-head attention over the extended reals.

  Both take hidden states x : [32, 577, 768], three weight matrices with their biases, and 289 row indices, and return
  [32, 289, 768].  The reference projects every token to queries, keys and values (x Wᵀ + b), gathers the query rows the
  indices name, and for each of the 12 heads of 64 features takes the scores q·k/8 against the 577 keys, their softmax,
  and the weighted sum of the values.  The kernel gathers the rows of x first and projects only those to queries: a
  projection acts on one token at a time, so the two orders give the same query rows.  It then runs the twelve heads on
  column slices of the projected blocks and lays their outputs side by side.  Changes of float format are the identity
  on the extended reals, every product on the two sides has its factors in the same order, and sums and maxima over a
  finite index set do not depend on how they are grouped, so both results are one function of the arguments
  (`Cert.Attn.result`), entry by entry; no finiteness of the inputs is used.

  An index counts from the end when negative, and both programs then read the row it names kept inside [0, 576]; but the
  kernel's gather fills a row with a not-a-number word when the index is out of range, where the reference reads the
  nearest row.  The statement therefore assumes every index in [-577, 577), the range in which the reference's own
  indexing is defined; there the kernel's fill never happens.

  The three programs' runs are the generated frame proofs; the idealization rewrote nothing, so it has nothing to preserve.
-/
import proofs.«411319_j90933047591130_3_alg».proof.Defs
import proofs.«411319_j90933047591130_3_alg».proof.Proof.Gen.Kernel
import proofs.«411319_j90933047591130_3_alg».proof.Proof.Gen.Kernel.Skeleton
import proofs.«411319_j90933047591130_3_alg».proof.Proof.Gen.Kernel.Launch
import proofs.«411319_j90933047591130_3_alg».proof.Proof.Gen.Kernel.Points
import proofs.«411319_j90933047591130_3_alg».proof.Proof.Gen.Kernel.Frame
import proofs.«411319_j90933047591130_3_alg».proof.Proof.Gen.KernelIdeal
import proofs.«411319_j90933047591130_3_alg».proof.Proof.Gen.KernelIdeal.Skeleton
import proofs.«411319_j90933047591130_3_alg».proof.Proof.Gen.KernelIdeal.Launch
import proofs.«411319_j90933047591130_3_alg».proof.Proof.Gen.KernelIdeal.Points
import proofs.«411319_j90933047591130_3_alg».proof.Proof.Gen.KernelIdeal.Frame
import proofs.«411319_j90933047591130_3_alg».proof.Proof.Gen.KernelIdeal.Value
import proofs.«411319_j90933047591130_3_alg».proof.Proof.Gen.ReferenceIdeal.Run
import proofs.«411319_j90933047591130_3_alg».proof.Proof.Gen.ReferenceIdeal.Read
import proofs.«411319_j90933047591130_3_alg».proof.Proof.Gen.ReferenceIdeal
import proofs.«411319_j90933047591130_3_alg».proof.Proof.Gen.Pre_finite_inputs
import proofs.«411319_j90933047591130_3_alg».proof.Proof.KernelArray
import proofs.«411319_j90933047591130_3_alg».proof.Proof.KernelInputs
import proofs.«411319_j90933047591130_3_alg».proof.Proof.RefAttention
import Idealize.ShloMosaic.Adequacy
import Idealize.ShloMosaic.Init

noncomputable section

namespace Cert.Proof

open Idealize.ShloMosaic Idealize.SL.Sem

/-- The kernel as printed runs, its arguments unchanged. -/
theorem frame_kernel : Cert.frame_Kernel := fun m ρ _ => Cert.Kernel.Gen.frame m ρ

/-- The idealized kernel runs, its arguments unchanged. -/
theorem frame_kernelIdeal : Cert.frame_KernelIdeal := fun m ρ _ => Cert.KernelIdeal.Gen.frame m ρ

/-- The idealized reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with every index in range, both programs end with the attention
    result of those arguments: the kernel's result array block by block, the reference's as its operations' term. -/
theorem algebraic : Cert.algebraic_KernelIdeal_ReferenceIdeal := by
  intro m ρ m' ρ' hpre hagree
  refine ⟨fun c => Cert.KernelArray.spec m c,
    Cert.KernelArray.run m ρ (fun c => Cert.KernelInputs.taken_rows m hpre c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.RefAttn.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
